-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024x3 : Shape := ⟨4, ![4, 1024, 1024, 3]⟩
abbrev S4x1024x1024 : Shape := ⟨3, ![4, 1024, 1024]⟩
abbrev S3x64 : Shape := ⟨2, ![3, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S4x1024x1024x3 : S_.BroadcastsInDim S4x1024x1024x3 (![] : Fin 0 → Fin S4x1024x1024x3.rank)
  reducesTo_S4x1024x1024x3_S_d0_1_2_3 : S4x1024x1024x3.ReducesTo [0, 1, 2, 3] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S4x1024x1024x3 .f32) (main_arg1 : IVec S4x1024x1024 1) (main_arg2 : FVec F S3x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S4x1024x1024x3 .f32 := Host.absf main_arg0
  let main_cst : FVec F S_ .f32 := constant S_ .f32 0x7F800000#32
  let main_v1 : FVec F S4x1024x1024x3 .f32 := broadcastInDim S4x1024x1024x3 ![] bcast_S_S4x1024x1024x3 main_cst
  let main_v2 : IVec S4x1024x1024x3 1 := cmpf .olt main_v0 main_v1
  let main_c : IVec S_ 1 := constantI S_ 1 1#1
  let main_v3 : IVec S_ 1 := (fun x v => Host.reduce IntOp.andi x v reducesTo_S4x1024x1024x3_S_d0_1_2_3 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S4x1024x1024x3 : Shape := ⟨4, ![4, 1024, 1024, 3]⟩
abbrev S4x1024x1024 : Shape := ⟨3, ![4, 1024, 1024]⟩
abbrev S3x64 : Shape := ⟨2, ![3, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S4x1024x3x1024 : Shape := ⟨4, ![4, 1024, 3, 1024]⟩
abbrev S1x64 : Shape := ⟨2, ![1, 64]⟩
abbrev S1x1 : Shape := ⟨2, ![1, 1]⟩
abbrev S1x128x3x1024 : Shape := ⟨4, ![1, 128, 3, 1024]⟩
abbrev S1x128x1024 : Shape := ⟨3, ![1, 128, 1024]⟩
abbrev S1x1x3x1024 : Shape := ⟨4, ![1, 1, 3, 1024]⟩
abbrev S3x1024 : Shape := ⟨2, ![3, 1024]⟩
abbrev S1024x64 : Shape := ⟨2, ![1024, 64]⟩
abbrev S1024x1 : Shape := ⟨2, ![1024, 1]⟩
abbrev S1024x8 : Shape := ⟨2, ![1024, 8]⟩
abbrev S8x1024 : Shape := ⟨2, ![8, 1024]⟩
abbrev S1x8x1024 : Shape := ⟨3, ![1, 8, 1024]⟩
abbrev S8 : Shape := ⟨1, ![8]⟩
abbrev S8x1 : Shape := ⟨2, ![8, 1]⟩

abbrev nBuf : Space → Nat
  | .hbm => 18
  | .vmem => 12
  | .smem => 0
  | _ => 0

abbrev bufTy : (tb : Table) → Fin (tcTables nBuf tb) → BufTy
  | .hbm, ⟨0, _⟩ => ⟨S4x1024x1024x3, .f32⟩
  | .hbm, ⟨1, _⟩ => ⟨S4x1024x1024, .i1⟩
  | .hbm, ⟨2, _⟩ => ⟨S3x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S4x1024x1024x3, .bf16⟩
  | .hbm, ⟨9, _⟩ => ⟨S4x1024x3x1024, .bf16⟩
  | .hbm, ⟨10, _⟩ => ⟨S3x64, .bf16⟩
  | .hbm, ⟨11, _⟩ => ⟨S64x64, .bf16⟩
  | .hbm, ⟨12, _⟩ => ⟨S64x1, .bf16⟩
  | .hbm, ⟨13, _⟩ => ⟨S1x64, .f32⟩
  | .hbm, ⟨14, _⟩ => ⟨S1x64, .f32⟩
  | .hbm, ⟨15, _⟩ => ⟨S1x1, .f32⟩
  | .hbm, ⟨16, _⟩ => ⟨S4x1024x1024, .i32⟩
  | .hbm, ⟨17, _⟩ => ⟨S4x1024x1024, .f32⟩
  | .local _ .vmem, ⟨0, _⟩ => ⟨S1x128x3x1024, .bf16⟩
  | .local _ .vmem, ⟨1, _⟩ => ⟨S1x128x3x1024, .bf16⟩
  | .local _ .vmem, ⟨2, _⟩ => ⟨S1x128x1024, .i32⟩
  | .local _ .vmem, ⟨3, _⟩ => ⟨S1x128x1024, .i32⟩
  | .local _ .vmem, ⟨4, _⟩ => ⟨S3x64, .bf16⟩
  | .local _ .vmem, ⟨5, _⟩ => ⟨S1x64, .f32⟩
  | .local _ .vmem, ⟨6, _⟩ => ⟨S64x64, .bf16⟩
  | .local _ .vmem, ⟨7, _⟩ => ⟨S1x64, .f32⟩
  | .local _ .vmem, ⟨8, _⟩ => ⟨S64x1, .bf16⟩
  | .local _ .vmem, ⟨9, _⟩ => ⟨S1x1, .f32⟩
  | .local _ .vmem, ⟨10, _⟩ => ⟨S1x128x1024, .f32⟩
  | .local _ .vmem, ⟨11, _⟩ => ⟨S1x128x1024, .f32⟩
  | _, _ => ⟨S4x1024x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32 : BitVec 32 := 8#32
  let v13 : BitVec 32 := Scalar.muli arg11 c8_i32
  v13
def k0_off1 (k0_t1 : Fin k0_t1_loop.trips) (c0_i32_12 : BitVec 32) : Fin 4 → Nat :=
  let c0_13 : Index := 0#32
  let c0_i32 : BitVec 32 := 0#32
  let c1_i32 : BitVec 32 := 1#32
  let arg11 : BitVec 32 := Scf.iv c0_i32 c1_i32 k0_t1
  let c8_i32 : BitVec 32 := 8#32
  let v13 : BitVec 32 := Scalar.muli arg11 c8_i32
  let v14 : BitVec 32 := v13
  let v15 : BitVec 32 := Scalar.addi v14 c0_i32_12
  let v16 : Index := Scalar.indexCast v15
  let c0_14 : Index := 0#32
  let c0_15 : Index := 0#32
  ![0, v16.toNat, 0, 0]
def k0_off2 (k0_t1 : Fin k0_t1_loop.trips) : Fin 3 → Nat :=
  let c0_77 : Index := 0#32
  let c0_i32 : BitVec 32 := 0#32
  let c1_i32 : BitVec 32 := 1#32
  let arg11 : BitVec 32 := Scf.iv c0_i32 c1_i32 k0_t1
  let c8_i32 : BitVec 32 := 8#32
  let v13 : BitVec 32 := Scalar.muli arg11 c8_i32
  let v14 : BitVec 32 := v13
  let v169 : Index := Scalar.indexCast v14
  let c0_78 : Index := 0#32
  ![0, v169.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x3x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  transposes_S4x1024x1024x3_S4x1024x3x1024_0_1_3_2 : S4x1024x1024x3.Transposes [0, 1, 3, 2] S4x1024x3x1024
  shapeCasts_S64_S1x64 : S64.ShapeCasts S1x64
  shapeCasts_S1_S1x1 : S1.ShapeCasts S1x1
  natLt_1_32 : 1 < 32
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S1x1x3x1024 : 0 < S1x1x3x1024.numel
  shapeCasts_S1x1x3x1024_S3x1024 : S1x1x3x1024.ShapeCasts S3x1024
  broadcasts_S1x64_S1024x64 : S1x64.Broadcasts S1024x64
  broadcasts_S1x1_S1024x1 : S1x1.Broadcasts S1024x1
  concatenates_S1024x1_S1024x1_S1024x1_S1024x1_S1024x1_S1024x1_S1024x1_S1024x1_S1024x8_d1 : Shape.Concatenates [S1024x1, S1024x1, S1024x1, S1024x1, S1024x1, S1024x1, S1024x1, S1024x1] S1024x8 1
  transposes_S1024x8_p1_0_S8x1024 : S1024x8.Transposes [1, 0] S8x1024
  h_S1x8x1024 : 0 < S1x8x1024.numel
  shapeCasts_S1x8x1024_S8x1024 : S1x8x1024.ShapeCasts S8x1024
  reduces_S8x1024_S8 : S8x1024.Reduces [1] S8
  shapeCasts_S8_S8x1 : S8.ShapeCasts S8x1
  broadcasts_S8x1_S8x1024 : S8x1.Broadcasts S8x1024
  shapeCasts_S8x1024_S1x8x1024 : S8x1024.ShapeCasts S1x8x1024
  dot_S3x1024_S3x64_S1024x64_0_0_1_1_n_n_wf : DotDims.WF S3x1024 S3x64 S1024x64 [0] [0] [1] [1] [] []
  dot_S1024x64_S64x64_S1024x64_1_0_0_1_n_n_wf : DotDims.WF S1024x64 S64x64 S1024x64 [1] [0] [0] [1] [] []
  dot_S1024x64_S64x1_S1024x1_1_0_0_1_n_n_wf : DotDims.WF S1024x64 S64x1 S1024x1 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ (r : Fin 8), ∀ a, (k0_off1 k0_t1 (BitVec.ofNat 32 r.val)) a + S1x1x3x1024.size a ≤ S1x128x3x1024.size a
  k0_off2_inb : ∀ k0_t1 : Fin k0_t1_loop.trips, ∀ a, (k0_off2 k0_t1) a + S1x8x1024.size a ≤ S1x128x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3x1024.size a ≤ S4x1024x3x1024.size a
  hwx0_0 : ∀ i : grid0.Coords, EltTy.bits .bf16 = 32 ∨ (Rect.block (s := S4x1024x3x1024) S1x128x3x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S4x1024x1024.size a
  hwx0_1 : ∀ i : grid0.Coords, EltTy.bits .i32 = 32 ∨ (Rect.block (s := S4x1024x1024) S1x128x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .bf16 = 32 ∨ (Rect.block (s := S3x64) S3x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .bf16 = 32 ∨ (Rect.block (s := S64x1) S64x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x1024.size a ≤ S4x1024x1024.size a
  hwx0_8 : ∀ i : grid0.Coords, EltTy.bits .f32 = 32 ∨ (Rect.block (s := S4x1024x1024) S1x128x1024.size (cc0_transform_8 i) (hinb0_8 i)).WholeWords (EltTy.packing .f32)

variable [Facts₀]

def dot_S3x1024_S3x64_S1024x64_0_0_1_1_n_n : DotDims S3x1024 S3x64 S1024x64 where
  lhsContracting := [0]
  rhsContracting := [0]
  lhsNonContracting := [1]
  rhsNonContracting := [1]
  lhsBatch := []
  rhsBatch := []
  wf := dot_S3x1024_S3x64_S1024x64_0_0_1_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_v1) S1x128x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x128x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x1024x1024x3 : Shape := ⟨4, ![4, 1024, 1024, 3]⟩
abbrev S4x1024x1024 : Shape := ⟨3, ![4, 1024, 1024]⟩
abbrev S3x64 : Shape := ⟨2, ![3, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S4x1024x1024x64 : Shape := ⟨4, ![4, 1024, 1024, 64]⟩
abbrev S1x1x1x64 : Shape := ⟨4, ![1, 1, 1, 64]⟩
abbrev S_ : Shape := ⟨0, ![]⟩
abbrev S4x1024x1024x1 : Shape := ⟨4, ![4, 1024, 1024, 1]⟩
abbrev S1x1x1x1 : Shape := ⟨4, ![1, 1, 1, 1]⟩
abbrev S4x1024 : Shape := ⟨2, ![4, 1024]⟩
abbrev S4x1024x1 : Shape := ⟨3, ![4, 1024, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x1024x3, .f32⟩
  | .hbm, ⟨1, _⟩ => ⟨S4x1024x1024, .i1⟩
  | .hbm, ⟨2, _⟩ => ⟨S3x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S4x1024x1024x64, .f32⟩
  | .hbm, ⟨9, _⟩ => ⟨S1x1x1x64, .f32⟩
  | .hbm, ⟨10, _⟩ => ⟨S4x1024x1024x64, .f32⟩
  | .hbm, ⟨11, _⟩ => ⟨S4x1024x1024x64, .f32⟩
  | .hbm, ⟨12, _⟩ => ⟨S_, .f32⟩
  | .hbm, ⟨13, _⟩ => ⟨S4x1024x1024x64, .f32⟩
  | .hbm, ⟨14, _⟩ => ⟨S4x1024x1024x64, .f32⟩
  | .hbm, ⟨15, _⟩ => ⟨S4x1024x1024x64, .f32⟩
  | .hbm, ⟨16, _⟩ => ⟨S1x1x1x64, .f32⟩
  | .hbm, ⟨17, _⟩ => ⟨S4x1024x1024x64, .f32⟩
  | .hbm, ⟨18, _⟩ => ⟨S4x1024x1024x64, .f32⟩
  | .hbm, ⟨19, _⟩ => ⟨S_, .f32⟩
  | .hbm, ⟨20, _⟩ => ⟨S4x1024x1024x64, .f32⟩
  | .hbm, ⟨21, _⟩ => ⟨S4x1024x1024x64, .f32⟩
  | .hbm, ⟨22, _⟩ => ⟨S4x1024x1024x1, .f32⟩
  | .hbm, ⟨23, _⟩ => ⟨S1x1x1x1, .f32⟩
  | .hbm, ⟨24, _⟩ => ⟨S4x1024x1024x1, .f32⟩
  | .hbm, ⟨25, _⟩ => ⟨S4x1024x1024x1, .f32⟩
  | .hbm, ⟨26, _⟩ => ⟨S4x1024x1024, .f32⟩
  | .hbm, ⟨27, _⟩ => ⟨S_, .f32⟩
  | .hbm, ⟨28, _⟩ => ⟨S_, .f32⟩
  | .hbm, ⟨29, _⟩ => ⟨S4x1024x1024, .f32⟩
  | .hbm, ⟨30, _⟩ => ⟨S4x1024x1024, .f32⟩
  | .hbm, ⟨31, _⟩ => ⟨S_, .f32⟩
  | .hbm, ⟨32, _⟩ => ⟨S4x1024, .f32⟩
  | .hbm, ⟨33, _⟩ => ⟨S_, .f32⟩
  | .hbm, ⟨34, _⟩ => ⟨S4x1024, .f32⟩
  | .hbm, ⟨35, _⟩ => ⟨S4x1024, .f32⟩
  | .hbm, ⟨36, _⟩ => ⟨S4x1024x1, .f32⟩
  | .hbm, ⟨37, _⟩ => ⟨S4x1024x1024, .f32⟩
  | .hbm, ⟨38, _⟩ => ⟨S4x1024x1024, .f32⟩
  | .hbm, ⟨39, _⟩ => ⟨S4x1024x1024, .f32⟩
  | .hbm, ⟨40, _⟩ => ⟨S_, .f32⟩
  | .hbm, ⟨41, _⟩ => ⟨S4x1024, .f32⟩
  | .hbm, ⟨42, _⟩ => ⟨S4x1024x1, .f32⟩
  | .hbm, ⟨43, _⟩ => ⟨S4x1024x1024, .f32⟩
  | .hbm, ⟨44, _⟩ => ⟨S4x1024x1024, .f32⟩
  | _, _ => ⟨S4x1024x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_call2_v0 : Ref sig .tc := ⟨.hbm, 28, rfl⟩
abbrev main_call2_v1 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S4x1024x1024x64_0_1_2_3 : S1x1x1x64.BroadcastsInDim S4x1024x1024x64 (![0, 1, 2, 3] : Fin 4 → Fin S4x1024x1024x64.rank)
  bcast_S_S4x1024x1024x64 : S_.BroadcastsInDim S4x1024x1024x64 (![] : Fin 0 → Fin S4x1024x1024x64.rank)
  bcast_S1_S1x1x1x1_3 : S1.BroadcastsInDim S1x1x1x1 (![3] : Fin 1 → Fin S1x1x1x1.rank)
  bcast_S1x1x1x1_S4x1024x1024x1_0_1_2_3 : S1x1x1x1.BroadcastsInDim S4x1024x1024x1 (![0, 1, 2, 3] : Fin 4 → Fin S4x1024x1024x1.rank)
  shapeCasts_S4x1024x1024x1_S4x1024x1024 : S4x1024x1024x1.ShapeCasts S4x1024x1024
  bcast_S_S4x1024x1024 : S_.BroadcastsInDim S4x1024x1024 (![] : Fin 0 → Fin S4x1024x1024.rank)
  reducesTo_S4x1024x1024_S4x1024_d2 : S4x1024x1024.ReducesTo [2] S4x1024
  h_S_ : 0 < S_.numel
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  bcast_S4x1024x1_S4x1024x1024_0_1_2 : S4x1024x1.BroadcastsInDim S4x1024x1024 (![0, 1, 2] : Fin 3 → Fin S4x1024x1024.rank)
  dot_S4x1024x1024x3_S3x64_S4x1024x1024x64_3_0_012_1_n_n_wf : DotDims.WF S4x1024x1024x3 S3x64 S4x1024x1024x64 [3] [0] [0, 1, 2] [1] [] []
  dot_S4x1024x1024x64_S64x64_S4x1024x1024x64_3_0_012_1_n_n_wf : DotDims.WF S4x1024x1024x64 S64x64 S4x1024x1024x64 [3] [0] [0, 1, 2] [1] [] []
  dot_S4x1024x1024x64_S64x1_S4x1024x1024x1_3_0_012_1_n_n_wf : DotDims.WF S4x1024x1024x64 S64x1 S4x1024x1024x1 [3] [0] [0, 1, 2] [1] [] []

variable [Facts₀]

def dot_S4x1024x1024x3_S3x64_S4x1024x1024x64_3_0_012_1_n_n : DotDims S4x1024x1024x3 S3x64 S4x1024x1024x64 where
  lhsContracting := [3]
  rhsContracting := [0]
  lhsNonContracting := [0, 1, 2]
  rhsNonContracting := [1]
  lhsBatch := []
  rhsBatch := []
  wf := dot_S4x1024x1024x3_S3x64_S4x1024x1024x64_3_0_012_1_n_n_wf
def dot_S4x1024x1024x64_S64x64_S4x1024x1024x64_3_0_012_1_n_n : DotDims S4x1024x1024x64 S64x64 S4x1024x1024x64 where
  lhsContracting := [3]
  rhsContracting := [0]
  lhsNonContracting := [0, 1, 2]
  rhsNonContracting := [1]
  lhsBatch := []
  rhsBatch := []
  wf := dot_S4x1024x1024x64_S64x64_S4x1024x1024x64_3_0_012_1_n_n_wf
def dot_S4x1024x1024x64_S64x1_S4x1024x1024x1_3_0_012_1_n_n : DotDims S4x1024x1024x64 S64x1 S4x1024x1024x1 where
  lhsContracting := [3]
  rhsContracting := [0]
  lhsNonContracting := [0, 1, 2]
  rhsNonContracting := [1]
  lhsBatch := []
  rhsBatch := []
  wf := dot_S4x1024x1024x64_S64x1_S4x1024x1024x1_3_0_012_1_n_n_wf

class Facts : Prop extends Facts₀ where

variable [Facts]
-- ==== Proof.Spec.lean ====
/-
  The function both programs compute, index by index, on the extended reals.

  For a batch entry p, a query row r and a key column j the score is a three-layer perceptron of the three-vector
  x = diff[p, r, j, ·]:  h₁ = max(x·W₁ + b₁, 0),  h₂ = max(h₁·W₂ + b₂, 0),  s = h₂·W₃ + b₃.
  A masked key's score is replaced by -∞, and the row is normalised by a softmax over its 1024 keys:
  with z the masked scores of the row and μ their maximum, the result is exp(z j - μ) / Σₖ exp(z k - μ).
  Every sum here is a finite sum of extended reals; no law beyond the definitions is used, so no finiteness
  of the inputs is needed to state it.
-/
import Idealize.ShloMosaic.PureOps.Ideal
import Idealize.ShloMosaic.Lib.ValueIdx
import Mathlib.Data.Finset.Fold

noncomputable section

namespace Cert.Spec

open Idealize.ShloMosaic Idealize.ShloMosaic.ValueIdx
open scoped BigOperators

/-- The extended real the all-zero f32 word denotes (it is 0; kept as the word, the same on both sides). -/
abbrev zeroW : EReal := Ideal.ofBits .f32 0x00000000#32

/-- The extended real the f32 word of -∞ denotes: where a row's maximum starts from. -/
abbrev negInfW : EReal := Ideal.ofBits .f32 0xFF800000#32

/-- First hidden layer at unit h: max(Σ_d x_d · W₁[d,h] + b₁[h], 0). -/
def hidden1 (x : Fin 3 → EReal) (W1 : Fin 3 → Fin 64 → EReal) (b1 : Fin 64 → EReal) (h : Fin 64) : EReal :=
  max ((∑ d : Fin 3, x d * W1 d h) + b1 h) zeroW

/-- Second hidden layer at unit k: max(Σ_h a_h · W₂[h,k] + b₂[k], 0). -/
def hidden2 (a : Fin 64 → EReal) (W2 : Fin 64 → Fin 64 → EReal) (b2 : Fin 64 → EReal) (k : Fin 64) : EReal :=
  max ((∑ h : Fin 64, a h * W2 h k) + b2 k) zeroW

/-- The score of one point: Σ_k h₂[k] · W₃[k] + b₃. -/
def score (x : Fin 3 → EReal) (W1 : Fin 3 → Fin 64 → EReal) (b1 : Fin 64 → EReal) (W2 : Fin 64 → Fin 64 → EReal)
    (b2 : Fin 64 → EReal) (W3 : Fin 64 → EReal) (b3 : EReal) : EReal :=
  (∑ k : Fin 64, hidden2 (hidden1 x W1 b1) W2 b2 k * W3 k) + b3

/-- A masked key scores -∞. -/
def masked (b : BitVec 1) (s : EReal) : EReal := Scalar.select b ⊥ s

/-- A row's maximum, folded from -∞. -/
def rowMax (z : Fin 1024 → EReal) : EReal := (Finset.univ : Finset (Fin 1024)).fold max negInfW z

/-- The unnormalised weight of key j: exp(z j - max z). -/
def rowExp (z : Fin 1024 → EReal) (j : Fin 1024) : EReal := Ideal.exp (z j - rowMax z)

/-- The softmax of a row at key j. -/
def rowSoftmax (z : Fin 1024 → EReal) (j : Fin 1024) : EReal := Ideal.div (rowExp z j) (∑ k : Fin 1024, rowExp z k)

/-- The masked scores of row (p, r). -/
def zrow (X : (⟨⟨4, ![4, 1024, 1024, 3]⟩, .f32⟩ : BufTy).Contents (Elt Ideal))
    (M : (⟨⟨3, ![4, 1024, 1024]⟩, .i1⟩ : BufTy).Contents (Elt Ideal))
    (W1 : (⟨⟨2, ![3, 64]⟩, .f32⟩ : BufTy).Contents (Elt Ideal)) (b1 : (⟨⟨1, ![64]⟩, .f32⟩ : BufTy).Contents (Elt Ideal))
    (W2 : (⟨⟨2, ![64, 64]⟩, .f32⟩ : BufTy).Contents (Elt Ideal)) (b2 : (⟨⟨1, ![64]⟩, .f32⟩ : BufTy).Contents (Elt Ideal))
    (W3 : (⟨⟨2, ![64, 1]⟩, .f32⟩ : BufTy).Contents (Elt Ideal)) (b3 : (⟨⟨1, ![1]⟩, .f32⟩ : BufTy).Contents (Elt Ideal))
    (p : Fin 4) (r : Fin 1024) (j : Fin 1024) : EReal :=
  masked (M (ix3 p r j))
    (score (fun d : Fin 3 => X (ix4 p r j d)) (fun (d : Fin 3) (h : Fin 64) => W1 (ix2 d h)) (fun h : Fin 64 => b1 (ix1 h))
      (fun (h : Fin 64) (k : Fin 64) => W2 (ix2 h k)) (fun k : Fin 64 => b2 (ix1 k)) (fun k : Fin 64 => W3 (ix2 k (0 : Fin 1)))
      (b3 (ix1 (0 : Fin 1))))

/-- THE RESULT ARRAY as one function of the eight argument arrays. -/
def G (X : (⟨⟨4, ![4, 1024, 1024, 3]⟩, .f32⟩ : BufTy).Contents (Elt Ideal))
    (M : (⟨⟨3, ![4, 1024, 1024]⟩, .i1⟩ : BufTy).Contents (Elt Ideal))
    (W1 : (⟨⟨2, ![3, 64]⟩, .f32⟩ : BufTy).Contents (Elt Ideal)) (b1 : (⟨⟨1, ![64]⟩, .f32⟩ : BufTy).Contents (Elt Ideal))
    (W2 : (⟨⟨2, ![64, 64]⟩, .f32⟩ : BufTy).Contents (Elt Ideal)) (b2 : (⟨⟨1, ![64]⟩, .f32⟩ : BufTy).Contents (Elt Ideal))
    (W3 : (⟨⟨2, ![64, 1]⟩, .f32⟩ : BufTy).Contents (Elt Ideal)) (b3 : (⟨⟨1, ![1]⟩, .f32⟩ : BufTy).Contents (Elt Ideal)) :
    (⟨⟨3, ![4, 1024, 1024]⟩, .f32⟩ : BufTy).Contents (Elt Ideal) :=
  fun i => rowSoftmax (zrow X M W1 b1 W2 b2 W3 b3 (i 0) (i 1)) (i 2)

/-- The f32 word of -∞ denotes the bottom of the extended reals. -/
theorem negInfW_eq : negInfW = ⊥ := by
  simp [negInfW, Ideal.ofBits, Ideal.ieee]

/-- Folding the maximum from -∞ and then taking the maximum with -∞ once more changes nothing. -/
theorem max_negInfW_rowMax (z : Fin 1024 → EReal) : max negInfW (rowMax z) = rowMax z :=
  max_eq_right ((Finset.le_fold_max _).mpr (Or.inl le_rfl))

end Cert.Spec

end
-- ==== Proof.KernelTerms.lean ====
/-
  The kernel body's arithmetic, named by what it computes. One trip of the body's loop handles eight rows of the
  block: for each row it loads the row's (3, 1024) slab, runs the three-layer perceptron on all 1024 columns at once
  (three matrix products, each followed by a bias and, for the first two, a clamp at zero), and gets a (1024, 1)
  column of scores; the eight columns are laid side by side, transposed into an (8, 1024) tile, the masked keys are
  overwritten by the named constant, and a row softmax of the tile is stored.  Here the per-row perceptron
  (`rowScore`) and the masked tile (`maskedTile`) are stated once, for any float instance, and the printed payloads
  are shown to be these terms by unfolding.
-/
import proofs.«415036_j4303557231270_3_alg».proof.Proof.Gen.KernelIdeal.Skeleton

set_option maxRecDepth 16384

noncomputable section

namespace Cert.KernelIdeal.Rows

open Cert.KernelIdeal Cert.KernelIdeal.Gen Idealize.ShloMosaic Idealize.SL.Sem

variable {F : FTy → Type} [FloatOps F] [Named F]

/-- The perceptron on one row: x is the row's (3, 1024) slab (feature-major), the result the (1024, 1) column of
    scores  max(max(xᵀ·W₁ + b₁, 0)·W₂ + b₂, 0)·W₃ + b₃. -/
def rowScore (w1 : FVec F S3x64 .bf16) (w2 : FVec F S64x64 .bf16) (w3 : FVec F S64x1 .bf16) (b1 : FVec F S1x64 .f32)
    (b2 : FVec F S1x64 .f32) (b3 : FVec F S1x1 .f32) (x : FVec F S3x1024 .bf16) : FVec F S1024x1 .f32 :=
  addf
    (matmul dot_S1024x64_S64x1_S1024x1_1_0_0_1_n_n none
      (truncf .bf16
        (maximumf
          (addf
            (matmul dot_S1024x64_S64x64_S1024x64_1_0_0_1_n_n none
              (truncf .bf16
                (maximumf
                  (addf (matmul dot_S3x1024_S3x64_S1024x64_0_0_1_1_n_n none x w1 (constant S1024x64 .f32 0x00000000#32))
                    (broadcastTo S1024x64 b1 broadcasts_S1x64_S1024x64))
                  (broadcast S1024x64 (Scalar.ofBits .f32 0x00000000#32)))
                bitsLt_bf16_f32)
              w2 (constant S1024x64 .f32 0x00000000#32))
            (broadcastTo S1024x64 b2 broadcasts_S1x64_S1024x64))
          (broadcast S1024x64 (Scalar.ofBits .f32 0x00000000#32)))
        bitsLt_bf16_f32)
      w3 (constant S1024x1 .f32 0x00000000#32))
    (broadcastTo S1024x1 b3 broadcasts_S1x1_S1024x1)

/-- Eight score columns side by side, transposed to an (8, 1024) tile, the masked keys (a nonzero mask word)
    overwritten by the named constant. -/
def maskedTile (c0 c1 c2 c3 c4 c5 c6 c7 : FVec F S1024x1 .f32) (msk : Vec F S1x8x1024 .i32) : FVec F S8x1024 .f32 :=
  select
    (cmpi .ne (shapeCast S8x1024 msk shapeCasts_S1x8x1024_S8x1024 : IVec S8x1024 32) (constantI S8x1024 32 0#32))
    (broadcast S8x1024 (Named.named κ "neg_big" 0xF149F2CA#32 : F .f32))
    (transpose S8x1024 [1, 0]
      (concatenate S1024x8 1
        [⟨S1024x1, c0⟩, ⟨S1024x1, c1⟩, ⟨S1024x1, c2⟩, ⟨S1024x1, c3⟩, ⟨S1024x1, c4⟩, ⟨S1024x1, c5⟩, ⟨S1024x1, c6⟩, ⟨S1024x1, c7⟩]
        concatenates_S1024x1_S1024x1_S1024x1_S1024x1_S1024x1_S1024x1_S1024x1_S1024x1_S1024x8_d1)
      transposes_S1024x8_p1_0_S8x1024)

/-- A loaded (1, 1, 3, 1024) slab as the (3, 1024) matrix the products take. -/
abbrev slab (v : Vec F S1x1x3x1024 .bf16) : FVec F S3x1024 .bf16 := shapeCast S3x1024 v shapeCasts_S1x1x3x1024_S3x1024

variable (w1 : FVec F S3x64 .bf16) (w2 : FVec F S64x64 .bf16) (w3 : FVec F S64x1 .bf16) (b1 : FVec F S1x64 .f32)
  (b2 : FVec F S1x64 .f32) (b3 : FVec F S1x1 .f32)

/-- Each of the six separately printed row payloads is the perceptron of its slab. -/
theorem pay8_eq (v : Vec F S1x1x3x1024 .bf16) : k0_pay8 w1 w2 w3 b1 b2 b3 v = rowScore w1 w2 w3 b1 b2 b3 (slab v) := rfl
theorem pay9_eq (v : Vec F S1x1x3x1024 .bf16) : k0_pay9 w1 w2 w3 b1 b2 b3 v = rowScore w1 w2 w3 b1 b2 b3 (slab v) := rfl
theorem pay10_eq (v : Vec F S1x1x3x1024 .bf16) : k0_pay10 w1 w2 w3 b1 b2 b3 v = rowScore w1 w2 w3 b1 b2 b3 (slab v) := rfl
theorem pay11_eq (v : Vec F S1x1x3x1024 .bf16) : k0_pay11 w1 w2 w3 b1 b2 b3 v = rowScore w1 w2 w3 b1 b2 b3 (slab v) := rfl
theorem pay12_eq (v : Vec F S1x1x3x1024 .bf16) : k0_pay12 w1 w2 w3 b1 b2 b3 v = rowScore w1 w2 w3 b1 b2 b3 (slab v) := rfl
theorem pay13_eq (v : Vec F S1x1x3x1024 .bf16) : k0_pay13 w1 w2 w3 b1 b2 b3 v = rowScore w1 w2 w3 b1 b2 b3 (slab v) := rfl
theorem pay14_eq (v : Vec F S1x1x3x1024 .bf16) : k0_pay14 v = slab v := rfl

/-- The last printed payload computes the two remaining rows itself and assembles the tile. -/
theorem pay15_eq (c0 c1 c2 c3 c4 c5 : FVec F S1024x1 .f32) (x6 : FVec F S3x1024 .bf16) (v7 : Vec F S1x1x3x1024 .bf16)
    (msk : Vec F S1x8x1024 .i32) :
    k0_pay15 w1 w2 w3 b1 b2 b3 c0 c1 c2 c3 c4 c5 x6 v7 msk
      = maskedTile c0 c1 c2 c3 c4 c5 (rowScore w1 w2 w3 b1 b2 b3 x6) (rowScore w1 w2 w3 b1 b2 b3 (slab v7)) msk := rfl

end Cert.KernelIdeal.Rows

end
-- ==== Proof.KernelPayload.lean ====
/-
  The kernel body's arithmetic read at an index, on the extended reals: the per-row perceptron, the masked tile and
  the row softmax of a tile are, entry by entry, the scalar functions of the specification.
-/
import proofs.«415036_j4303557231270_3_alg».proof.Proof.KernelTerms
import proofs.«415036_j4303557231270_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.KernelIdeal.Rows

open Cert.KernelIdeal Cert.KernelIdeal.Gen Idealize.ShloMosaic Idealize.ShloMosaic.ValueIdx Idealize.SL.Sem
open scoped BigOperators

/-- The named fill constant denotes -∞ on the extended reals, by the certificate's table. -/
theorem neg_big_eq : Named.named (F := Ideal) Cert.KernelIdeal.κ "neg_big" (φ := .f32) 0xF149F2CA#32 = (⊥ : EReal) :=
  IdealRules.named_const.ideal_named_scalar _ _ _ _ rfl

/-! ## The perceptron of one row -/

/-! ## The three products' operand indices, axis by axis -/

theorem lhs1_c (i : S1024x64.Idx) (q : dot_S3x1024_S3x64_S1024x64_0_0_1_1_n_n.contr.Idx) :
    (dot_S3x1024_S3x64_S1024x64_0_0_1_1_n_n.lhsIdx i q 0).val = (q ⟨0, by decide⟩).val :=
  dot_S3x1024_S3x64_S1024x64_0_0_1_1_n_n.lhsIdx_val_of_single rfl i q
theorem lhs1_f (i : S1024x64.Idx) (q : dot_S3x1024_S3x64_S1024x64_0_0_1_1_n_n.contr.Idx) :
    (dot_S3x1024_S3x64_S1024x64_0_0_1_1_n_n.lhsIdx i q 1).val = (i 0).val := by
  unfold DotDims.lhsIdx
  rw [dif_neg (show ¬(1 : Fin S3x1024.rank) ∈ dot_S3x1024_S3x64_S1024x64_0_0_1_1_n_n.lhsBatch by decide),
    dif_pos (show (1 : Fin S3x1024.rank) ∈ dot_S3x1024_S3x64_S1024x64_0_0_1_1_n_n.lhsNonContracting by decide)]
  rfl
theorem rhs1_c (i : S1024x64.Idx) (q : dot_S3x1024_S3x64_S1024x64_0_0_1_1_n_n.contr.Idx) :
    (dot_S3x1024_S3x64_S1024x64_0_0_1_1_n_n.rhsIdx i q 0).val = (q ⟨0, by decide⟩).val :=
  dot_S3x1024_S3x64_S1024x64_0_0_1_1_n_n.rhsIdx_val_of_single rfl i q
theorem rhs1_f (i : S1024x64.Idx) (q : dot_S3x1024_S3x64_S1024x64_0_0_1_1_n_n.contr.Idx) :
    (dot_S3x1024_S3x64_S1024x64_0_0_1_1_n_n.rhsIdx i q 1).val = (i 1).val := by
  unfold DotDims.rhsIdx
  rw [dif_neg (show ¬(1 : Fin S3x64.rank) ∈ dot_S3x1024_S3x64_S1024x64_0_0_1_1_n_n.rhsBatch by decide),
    dif_pos (show (1 : Fin S3x64.rank) ∈ dot_S3x1024_S3x64_S1024x64_0_0_1_1_n_n.rhsNonContracting by decide)]
  rfl

theorem lhs2_c (i : S1024x64.Idx) (q : dot_S1024x64_S64x64_S1024x64_1_0_0_1_n_n.contr.Idx) :
    (dot_S1024x64_S64x64_S1024x64_1_0_0_1_n_n.lhsIdx i q 1).val = (q ⟨0, by decide⟩).val :=
  dot_S1024x64_S64x64_S1024x64_1_0_0_1_n_n.lhsIdx_val_of_single rfl i q
theorem lhs2_f (i : S1024x64.Idx) (q : dot_S1024x64_S64x64_S1024x64_1_0_0_1_n_n.contr.Idx) :
    (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide),
    dif_pos (show (0 : Fin S1024x64.rank) ∈ dot_S1024x64_S64x64_S1024x64_1_0_0_1_n_n.lhsNonContracting by decide)]
  rfl
theorem rhs2_c (i : S1024x64.Idx) (q : dot_S1024x64_S64x64_S1024x64_1_0_0_1_n_n.contr.Idx) :
    (dot_S1024x64_S64x64_S1024x64_1_0_0_1_n_n.rhsIdx i q 0).val = (q ⟨0, by decide⟩).val :=
  dot_S1024x64_S64x64_S1024x64_1_0_0_1_n_n.rhsIdx_val_of_single rfl i q
theorem rhs2_f (i : S1024x64.Idx) (q : dot_S1024x64_S64x64_S1024x64_1_0_0_1_n_n.contr.Idx) :
    (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide),
    dif_pos (show (1 : Fin S64x64.rank) ∈ dot_S1024x64_S64x64_S1024x64_1_0_0_1_n_n.rhsNonContracting by decide)]
  rfl

theorem lhs3_c (i : S1024x1.Idx) (q : dot_S1024x64_S64x1_S1024x1_1_0_0_1_n_n.contr.Idx) :
    (dot_S1024x64_S64x1_S1024x1_1_0_0_1_n_n.lhsIdx i q 1).val = (q ⟨0, by decide⟩).val :=
  dot_S1024x64_S64x1_S1024x1_1_0_0_1_n_n.lhsIdx_val_of_single rfl i q
theorem lhs3_f (i : S1024x1.Idx) (q : dot_S1024x64_S64x1_S1024x1_1_0_0_1_n_n.contr.Idx) :
    (dot_S1024x64_S64x1_S1024x1_1_0_0_1_n_n.lhsIdx i q 0).val = (i 0).val := by
  unfold DotDims.lhsIdx
  rw [dif_neg (show ¬(0 : Fin S1024x64.rank) ∈ dot_S1024x64_S64x1_S1024x1_1_0_0_1_n_n.lhsBatch by decide),
    dif_pos (show (0 : Fin S1024x64.rank) ∈ dot_S1024x64_S64x1_S1024x1_1_0_0_1_n_n.lhsNonContracting by decide)]
  rfl
theorem rhs3_c (i : S1024x1.Idx) (q : dot_S1024x64_S64x1_S1024x1_1_0_0_1_n_n.contr.Idx) :
    (dot_S1024x64_S64x1_S1024x1_1_0_0_1_n_n.rhsIdx i q 0).val = (q ⟨0, by decide⟩).val :=
  dot_S1024x64_S64x1_S1024x1_1_0_0_1_n_n.rhsIdx_val_of_single rfl i q
theorem rhs3_f (i : S1024x1.Idx) (q : dot_S1024x64_S64x1_S1024x1_1_0_0_1_n_n.contr.Idx) :
    (dot_S1024x64_S64x1_S1024x1_1_0_0_1_n_n.rhsIdx i q 1).val = (i 1).val := by
  unfold DotDims.rhsIdx
  rw [dif_neg (show ¬(1 : Fin S64x1.rank) ∈ dot_S1024x64_S64x1_S1024x1_1_0_0_1_n_n.rhsBatch by decide),
    dif_pos (show (1 : Fin S64x1.rank) ∈ dot_S1024x64_S64x1_S1024x1_1_0_0_1_n_n.rhsNonContracting by decide)]
  rfl

/-- The first product at (j, h): the sum over the three features of the slab's column j against W₁'s column h. -/
theorem mm1_apply (x : FVec Ideal S3x1024 .bf16) (w : FVec Ideal S3x64 .bf16) (j : Fin 1024) (h : Fin 64) :
    matmul dot_S3x1024_S3x64_S1024x64_0_0_1_1_n_n none x w (constant S1024x64 .f32 0x00000000#32) (ix2 j h) = ∑ d : Fin 3, x (ix2 d j) * w (ix2 d h) := by
  refine (Ideal.matmul_constant_zero_apply dot_S3x1024_S3x64_S1024x64_0_0_1_1_n_n none x w (ix2 j h)).trans ?_
  rw [← Equiv.sum_comp (contrEquiv1 dot_S3x1024_S3x64_S1024x64_0_0_1_1_n_n 3 rfl rfl).symm]
  refine Finset.sum_congr rfl fun k _ => ?_
  have hk := contrEquiv1_symm_val dot_S3x1024_S3x64_S1024x64_0_0_1_1_n_n 3 rfl rfl k
  have el : dot_S3x1024_S3x64_S1024x64_0_0_1_1_n_n.lhsIdx (ix2 j h) ((contrEquiv1 dot_S3x1024_S3x64_S1024x64_0_0_1_1_n_n 3 rfl rfl).symm k) = ix2 k j := funext fun a => Fin.ext (by
    match a with
    | ⟨0, _⟩ => exact (lhs1_c _ _).trans hk
    | ⟨1, _⟩ => exact lhs1_f _ _)
  have er : dot_S3x1024_S3x64_S1024x64_0_0_1_1_n_n.rhsIdx (ix2 j h) ((contrEquiv1 dot_S3x1024_S3x64_S1024x64_0_0_1_1_n_n 3 rfl rfl).symm k) = ix2 k h := funext fun a => Fin.ext (by
    match a with
    | ⟨0, _⟩ => exact (rhs1_c _ _).trans hk
    | ⟨1, _⟩ => exact rhs1_f _ _)
  rw [el, er]

/-- The second product at (j, k): row j of the activations against W₂'s column k. -/
theorem mm2_apply (x : FVec Ideal S1024x64 .bf16) (w : FVec Ideal S64x64 .bf16) (j : Fin 1024) (k : Fin 64) :
    matmul dot_S1024x64_S64x64_S1024x64_1_0_0_1_n_n none x w (constant S1024x64 .f32 0x00000000#32) (ix2 j k) = ∑ h : Fin 64, x (ix2 j h) * w (ix2 h k) := by
  refine (Ideal.matmul_constant_zero_apply dot_S1024x64_S64x64_S1024x64_1_0_0_1_n_n none x w (ix2 j k)).trans ?_
  rw [← Equiv.sum_comp (contrEquiv1 dot_S1024x64_S64x64_S1024x64_1_0_0_1_n_n 64 rfl rfl).symm]
  refine Finset.sum_congr rfl fun h _ => ?_
  have hk := contrEquiv1_symm_val dot_S1024x64_S64x64_S1024x64_1_0_0_1_n_n 64 rfl rfl h
  have el : dot_S1024x64_S64x64_S1024x64_1_0_0_1_n_n.lhsIdx (ix2 j k) ((contrEquiv1 dot_S1024x64_S64x64_S1024x64_1_0_0_1_n_n 64 rfl rfl).symm h) = ix2 j h := funext fun a => Fin.ext (by
    match a with
    | ⟨0, _⟩ => exact lhs2_f _ _
    | ⟨1, _⟩ => exact (lhs2_c _ _).trans hk)
  have er : dot_S1024x64_S64x64_S1024x64_1_0_0_1_n_n.rhsIdx (ix2 j k) ((contrEquiv1 dot_S1024x64_S64x64_S1024x64_1_0_0_1_n_n 64 rfl rfl).symm h) = ix2 h k := funext fun a => Fin.ext (by
    match a with
    | ⟨0, _⟩ => exact (rhs2_c _ _).trans hk
    | ⟨1, _⟩ => exact rhs2_f _ _)
  rw [el, er]

/-- The third product at (j, 0): row j of the activations against W₃'s one column. -/
theorem mm3_apply (x : FVec Ideal S1024x64 .bf16) (w : FVec Ideal S64x1 .bf16) (j : Fin 1024) (o : Fin 1) :
    matmul dot_S1024x64_S64x1_S1024x1_1_0_0_1_n_n none x w (constant S1024x1 .f32 0x00000000#32) (ix2 j o) = ∑ k : Fin 64, x (ix2 j k) * w (ix2 k o) := by
  refine (Ideal.matmul_constant_zero_apply dot_S1024x64_S64x1_S1024x1_1_0_0_1_n_n none x w (ix2 j o)).trans ?_
  rw [← Equiv.sum_comp (contrEquiv1 dot_S1024x64_S64x1_S1024x1_1_0_0_1_n_n 64 rfl rfl).symm]
  refine Finset.sum_congr rfl fun k _ => ?_
  have hk := contrEquiv1_symm_val dot_S1024x64_S64x1_S1024x1_1_0_0_1_n_n 64 rfl rfl k
  have el : dot_S1024x64_S64x1_S1024x1_1_0_0_1_n_n.lhsIdx (ix2 j o) ((contrEquiv1 dot_S1024x64_S64x1_S1024x1_1_0_0_1_n_n 64 rfl rfl).symm k) = ix2 j k := funext fun a => Fin.ext (by
    match a with
    | ⟨0, _⟩ => exact lhs3_f _ _
    | ⟨1, _⟩ => exact (lhs3_c _ _).trans hk)
  have er : dot_S1024x64_S64x1_S1024x1_1_0_0_1_n_n.rhsIdx (ix2 j o) ((contrEquiv1 dot_S1024x64_S64x1_S1024x1_1_0_0_1_n_n 64 rfl rfl).symm k) = ix2 k o := funext fun a => Fin.ext (by
    match a with
    | ⟨0, _⟩ => exact (rhs3_c _ _).trans hk
    | ⟨1, _⟩ => exact rhs3_f _ _)
  rw [el, er]

/-- The first layer's activations at (j, h). -/
theorem layer1_apply (x : FVec Ideal S3x1024 .bf16) (w1 : FVec Ideal S3x64 .bf16) (b1 : FVec Ideal S1x64 .f32)
    (j : Fin 1024) (h : Fin 64) :
    (truncf .bf16
      (maximumf
        (addf (matmul dot_S3x1024_S3x64_S1024x64_0_0_1_1_n_n none x w1 (constant S1024x64 .f32 0x00000000#32))
          (broadcastTo S1024x64 b1 broadcasts_S1x64_S1024x64))
        (broadcast S1024x64 (Scalar.ofBits .f32 0x00000000#32)))
      bitsLt_bf16_f32 : FVec Ideal S1024x64 .bf16) (ix2 j h)
      = Cert.Spec.hidden1 (fun d : Fin 3 => x (ix2 d j)) (fun (d : Fin 3) (h : Fin 64) => w1 (ix2 d h))
          (fun h : Fin 64 => b1 (ix2 (0 : Fin 1) h)) h := by
  show max (matmul dot_S3x1024_S3x64_S1024x64_0_0_1_1_n_n none x w1 (constant S1024x64 .f32 0x00000000#32) (ix2 j h)
      + broadcastTo S1024x64 b1 broadcasts_S1x64_S1024x64 (ix2 j h)) Cert.Spec.zeroW = _
  rw [mm1_apply, broadcastTo_1b_ab_apply]
  rfl

/-- The second layer's activations at (j, k), from the first layer's row j. -/
theorem layer2_apply (a : FVec Ideal S1024x64 .bf16) (w2 : FVec Ideal S64x64 .bf16) (b2 : FVec Ideal S1x64 .f32)
    (j : Fin 1024) (k : Fin 64) :
    (truncf .bf16
      (maximumf
        (addf (matmul dot_S1024x64_S64x64_S1024x64_1_0_0_1_n_n none a w2 (constant S1024x64 .f32 0x00000000#32))
          (broadcastTo S1024x64 b2 broadcasts_S1x64_S1024x64))
        (broadcast S1024x64 (Scalar.ofBits .f32 0x00000000#32)))
      bitsLt_bf16_f32 : FVec Ideal S1024x64 .bf16) (ix2 j k)
      = Cert.Spec.hidden2 (fun h : Fin 64 => a (ix2 j h)) (fun (h : Fin 64) (k : Fin 64) => w2 (ix2 h k))
          (fun k : Fin 64 => b2 (ix2 (0 : Fin 1) k)) k := by
  show max (matmul dot_S1024x64_S64x64_S1024x64_1_0_0_1_n_n none a w2 (constant S1024x64 .f32 0x00000000#32) (ix2 j k)
      + broadcastTo S1024x64 b2 broadcasts_S1x64_S1024x64 (ix2 j k)) Cert.Spec.zeroW = _
  rw [mm2_apply, broadcastTo_1b_ab_apply]
  rfl

/-- Entry j of a row's score column is the specified perceptron of column j of the row's slab. -/
theorem rowScore_apply (w1 : FVec Ideal S3x64 .bf16) (w2 : FVec Ideal S64x64 .bf16) (w3 : FVec Ideal S64x1 .bf16)
    (b1 : FVec Ideal S1x64 .f32) (b2 : FVec Ideal S1x64 .f32) (b3 : FVec Ideal S1x1 .f32) (x : FVec Ideal S3x1024 .bf16)
    (j : Fin 1024) :
    rowScore w1 w2 w3 b1 b2 b3 x (ix2 j (0 : Fin 1))
      = Cert.Spec.score (fun d : Fin 3 => x (ix2 d j)) (fun (d : Fin 3) (h : Fin 64) => w1 (ix2 d h))
          (fun h : Fin 64 => b1 (ix2 (0 : Fin 1) h)) (fun (h : Fin 64) (k : Fin 64) => w2 (ix2 h k))
          (fun k : Fin 64 => b2 (ix2 (0 : Fin 1) k)) (fun k : Fin 64 => w3 (ix2 k (0 : Fin 1)))
          (b3 (ix2 (0 : Fin 1) (0 : Fin 1))) := by
  unfold rowScore Cert.Spec.score
  refine (congrArg₂ (· + ·) (mm3_apply _ w3 j 0) (broadcastTo_1b_ab_apply b3 broadcasts_S1x1_S1024x1 j (0 : Fin 1))).trans ?_
  refine congrArg (· + b3 (ix2 (0 : Fin 1) (0 : Fin 1))) (Finset.sum_congr rfl fun k _ => ?_)
  refine congrArg (· * w3 (ix2 k (0 : Fin 1))) ?_
  refine (layer2_apply _ w2 b2 j k).trans ?_
  exact congrArg (fun a => Cert.Spec.hidden2 a _ _ k) (funext fun h => layer1_apply x w1 b1 j h)

/-! ## The masked tile -/

/-- Entry (a, j) of the masked tile: column a's score at j, or -∞ where the mask word is nonzero. -/
theorem maskedTile_apply (c : Fin 8 → FVec Ideal S1024x1 .f32) (msk : Vec Ideal S1x8x1024 .i32) (a : Fin 8) (j : Fin 1024) :
    maskedTile (c 0) (c 1) (c 2) (c 3) (c 4) (c 5) (c 6) (c 7) msk (ix2 a j)
      = Cert.Spec.masked (IntOp.cmpi .ne (msk (ix3 (0 : Fin 1) a j)) 0#32) (c a (ix2 j (0 : Fin 1))) := by
  have hcat : concatenate S1024x8 1
        [⟨S1024x1, c 0⟩, ⟨S1024x1, c 1⟩, ⟨S1024x1, c 2⟩, ⟨S1024x1, c 3⟩, ⟨S1024x1, c 4⟩, ⟨S1024x1, c 5⟩, ⟨S1024x1, c 6⟩, ⟨S1024x1, c 7⟩]
        concatenates_S1024x1_S1024x1_S1024x1_S1024x1_S1024x1_S1024x1_S1024x1_S1024x1_S1024x8_d1 (ix2 j a) = c a (ix2 j (0 : Fin 1)) :=
    concatenate_ofFn_unit_apply (t := S1024x8) (s₁ := S1024x1) (1 : Fin 2) c
      concatenates_S1024x1_S1024x1_S1024x1_S1024x1_S1024x1_S1024x1_S1024x1_S1024x1_S1024x8_d1 rfl rfl (ix2 j a) a rfl
      (ix2 j (0 : Fin 1)) (fun b hb => by
        match b with
        | ⟨0, _⟩ => rfl
        | ⟨1, _⟩ => exact absurd rfl hb)
  unfold maskedTile Cert.Spec.masked
  rw [select_apply, broadcast_apply, neg_big_eq, transpose_ix2_apply, hcat]
  show Scalar.select (IntOp.cmpi .ne (shapeCast S8x1024 msk shapeCasts_S1x8x1024_S8x1024 (ix2 a j)) 0#32) _ _ = _
  rw [shapeCast_1ab_ab_apply]

/-! ## The row softmax of a tile -/

/-- The source index over row a of the tile with key k inserted is (a, k). -/
theorem lift_row (a : Fin 8) (k : Fin 1024) : reduces_S8x1024_S8.lift (ix1 a) k = ix2 a k :=
  funext fun c => Fin.ext (by match c with | ⟨0, _⟩ => rfl | ⟨1, _⟩ => rfl)

/-- A vector of per-row values made a column and spread along the rows reads, at (a, j), the value of row a. -/
theorem keepdims_apply (r : FVec Ideal S8 .f32) (a : Fin 8) (j : Fin 1024) :
    broadcastTo S8x1024 (shapeCast S8x1 r shapeCasts_S8_S8x1) broadcasts_S8x1_S8x1024 (ix2 a j) = r (ix1 a) := by
  refine (broadcastTo_apply _ broadcasts_S8x1_S8x1024 (ix2 a j) (ix2 a (0 : Fin 1)) fun ax => ?_).trans ?_
  · match ax with
    | ⟨0, _⟩ => rfl
    | ⟨1, _⟩ => rfl
  · exact shapeCast_apply r shapeCasts_S8_S8x1 _ _ (by
      rw [Shape.rowMajor_val_two, Shape.rowMajor_val_one]
      show a.val = a.val * 1 + 0
      omega)

/-- The row maximum of the tile. -/
theorem rowMax_read (t : FVec Ideal S8x1024 .f32) (a : Fin 8) :
    multiReduction (F := Ideal) .maximumf [1] S8 t 0xFF800000#32 reduces_S8x1024_S8 (.inl rfl) rfl (ix1 a)
      = Cert.Spec.rowMax (fun k : Fin 1024 => t (ix2 a k)) := by
  refine (Ideal.multiReduction_maximumf_single t _ reduces_S8x1024_S8 _ _ (ix1 a)).trans ?_
  show (Finset.univ : Finset (Fin 1024)).fold max Cert.Spec.negInfW (fun k : Fin 1024 => t (reduces_S8x1024_S8.lift (ix1 a) k))
    = (Finset.univ : Finset (Fin 1024)).fold max Cert.Spec.negInfW (fun k : Fin 1024 => t (ix2 a k))
  exact congrArg (fun f => (Finset.univ : Finset (Fin 1024)).fold max Cert.Spec.negInfW f) (funext fun k => congrArg t (lift_row a k))

/-- The row sum of a tile. -/
theorem rowSum_read (e : FVec Ideal S8x1024 .f32) (a : Fin 8) :
    multiReduction (F := Ideal) .add [1] S8 e 0x00000000#32 reduces_S8x1024_S8 (.inl rfl) rfl (ix1 a)
      = ∑ k : Fin 1024, e (ix2 a k) := by
  refine (Ideal.multiReduction_add_single e _ reduces_S8x1024_S8 _ _ (ix1 a)).trans ?_
  exact Finset.sum_congr rfl fun k _ => congrArg e (lift_row a k)

/-- The softmax of the tile's row a at key j, before the outer cast. -/
theorem softmax_core (t : FVec Ideal S8x1024 .f32) (a : Fin 8) (j : Fin 1024) :
    divf
      (exp (subf t (broadcastTo S8x1024 (shapeCast S8x1
        (multiReduction (F := Ideal) .maximumf [1] S8 t 0xFF800000#32 reduces_S8x1024_S8 (.inl rfl) rfl) shapeCasts_S8_S8x1)
        broadcasts_S8x1_S8x1024)))
      (broadcastTo S8x1024 (shapeCast S8x1
        (multiReduction (F := Ideal) .add [1] S8
          (exp (subf t (broadcastTo S8x1024 (shapeCast S8x1
            (multiReduction (F := Ideal) .maximumf [1] S8 t 0xFF800000#32 reduces_S8x1024_S8 (.inl rfl) rfl) shapeCasts_S8_S8x1)
            broadcasts_S8x1_S8x1024)))
          0x00000000#32 reduces_S8x1024_S8 (.inl rfl) rfl) shapeCasts_S8_S8x1)
        broadcasts_S8x1_S8x1024) (ix2 a j)
      = Cert.Spec.rowSoftmax (fun k : Fin 1024 => t (ix2 a k)) j := by
  have hE : ∀ k : Fin 1024,
      exp (subf t (broadcastTo S8x1024 (shapeCast S8x1
        (multiReduction (F := Ideal) .maximumf [1] S8 t 0xFF800000#32 reduces_S8x1024_S8 (.inl rfl) rfl) shapeCasts_S8_S8x1)
        broadcasts_S8x1_S8x1024)) (ix2 a k) = Cert.Spec.rowExp (fun k : Fin 1024 => t (ix2 a k)) k := by
    intro k
    show Ideal.exp (t (ix2 a k) - broadcastTo S8x1024 (shapeCast S8x1
        (multiReduction (F := Ideal) .maximumf [1] S8 t 0xFF800000#32 reduces_S8x1024_S8 (.inl rfl) rfl) shapeCasts_S8_S8x1)
        broadcasts_S8x1_S8x1024 (ix2 a k)) = _
    rw [keepdims_apply, rowMax_read]
    rfl
  rw [divf_apply, keepdims_apply, rowSum_read, hE j]
  unfold Cert.Spec.rowSoftmax
  exact congrArg (Ideal.div _) (Finset.sum_congr rfl fun k _ => hE k)

/-- Entry (·, a, j) of the stored payload is the softmax of row a of the tile at key j. -/
theorem softmaxPay_apply (t : FVec Ideal S8x1024 .f32) (u : Fin 1) (a : Fin 8) (j : Fin 1024) :
    k0_pay7 t (ix3 u a j) = Cert.Spec.rowSoftmax (fun k : Fin 1024 => t (ix2 a k)) j :=
  (shapeCast_ab_1ab_apply _ shapeCasts_S8x1024_S1x8x1024 u a j).trans (softmax_core t a j)

end Cert.KernelIdeal.Rows

end
-- ==== Proof.KernelBlock.lean ====
/-
  What one grid point of the kernel leaves in its output block, as a function of its input blocks.

  The body loads the six small operands whole, then runs a loop of sixteen trips; trip k loads the eight slabs of rows
  8k … 8k + 7 of the diff block and the eight mask rows, and stores ONE piece: rows 8k … 8k + 7 of the output block,
  holding the row softmax of the trip's masked score tile. The list of pieces a whole run leaves is therefore the
  trips' pieces, one each (by induction on the number of trips done), the pieces tile the block, and each piece holds,
  entry by entry, ONE function of the block index: row r of the block is the softmax over the 1024 keys of the masked
  perceptron scores of row r. So that function is what the staging buffer reads after the run, whatever it held before.
-/
import proofs.«415036_j4303557231270_3_alg».proof.Proof.Gen.KernelIdeal.Frame
import proofs.«415036_j4303557231270_3_alg».proof.Proof.KernelTerms
import proofs.«415036_j4303557231270_3_alg».proof.Proof.KernelPayload

set_option maxRecDepth 16384

noncomputable section

namespace Cert.KernelIdeal.Rows

open Cert.KernelIdeal Cert.KernelIdeal.Gen Idealize.ShloMosaic Idealize.ShloMosaic.TcCoe Idealize.ShloMosaic.Tactic
open Idealize.SL Idealize.SL.Sem

variable {F : FTy → Type} [FloatOps F] [Named F]

section AnyInstance

variable (w1 : FVec F S3x64 .bf16) (w2 : FVec F S64x64 .bf16) (w3 : FVec F S64x1 .bf16) (b1 : FVec F S1x64 .f32)
  (b2 : FVec F S1x64 .f32) (b3 : FVec F S1x1 .f32)

/-- Trip k's n-th score column: the perceptron of row 8k + n of the block (its slab read out of the block). -/
def tripCol (x0 : Vec F S1x128x3x1024 .bf16) (k : Fin k0_t1_loop.trips) (n : Fin 8) : FVec F S1024x1 .f32 :=
  rowScore w1 w2 w3 b1 b2 b3
    (slab (View.ld x0 (Rect.unit (s := S1x128x3x1024) (k0_off1 k (BitVec.ofNat 32 n.val)) S1x1x3x1024.size (k0_off1_inb k n)) :
      Vec F S1x1x3x1024 .bf16))

/-- Trip k's masked tile: rows 8k … 8k + 7 of the block. -/
def tripTile (x0 : Vec F S1x128x3x1024 .bf16) (x1 : Vec F S1x128x1024 .i32) (k : Fin k0_t1_loop.trips) : FVec F S8x1024 .f32 :=
  maskedTile (tripCol w1 w2 w3 b1 b2 b3 x0 k 0) (tripCol w1 w2 w3 b1 b2 b3 x0 k 1) (tripCol w1 w2 w3 b1 b2 b3 x0 k 2)
    (tripCol w1 w2 w3 b1 b2 b3 x0 k 3) (tripCol w1 w2 w3 b1 b2 b3 x0 k 4) (tripCol w1 w2 w3 b1 b2 b3 x0 k 5)
    (tripCol w1 w2 w3 b1 b2 b3 x0 k 6) (tripCol w1 w2 w3 b1 b2 b3 x0 k 7)
    (View.ld x1 (Rect.unit (s := S1x128x1024) (k0_off2 k) S1x8x1024.size (k0_off2_inb k)) : Vec F S1x8x1024 .i32)

/-- The one piece trip k stores: rows 8k … 8k + 7 of the output block, holding the row softmax of the trip's tile. -/
def tripPiece (x0 : Vec F S1x128x3x1024 .bf16) (x1 : Vec F S1x128x1024 .i32) (k : Fin k0_t1_loop.trips) :
    View.Piece (Elt F) S1x128x1024 .f32 :=
  ⟨Rect.unit (s := S1x128x1024) (k0_off2 k) S1x8x1024.size (k0_off2_inb k), k0_pay7 (tripTile w1 w2 w3 b1 b2 b3 x0 x1 k)⟩

end AnyInstance

/-- What one trip of the loop writes is that piece, over the contents its memrefs read. -/
theorem tripL_eq (𝒱 : Variants) (c : Dev nD) (bd : Option 𝒱.V) (i : grid0.Coords) (arg2 : Memref sig .tc .vmem S1x128x3x1024 .bf16) (harg2 : arg2.IsWhole) (arg3 : Memref sig .tc .vmem S1x128x1024 .i32) (harg3 : arg3.IsWhole) (arg4 : Memref sig .tc .vmem S3x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S64x1 .bf16) (harg8 : arg8.IsWhole) (arg9 : Memref sig .tc .vmem S1x1 .f32) (harg9 : arg9.IsWhole) (arg10 : Memref sig .tc .vmem S1x128x1024 .f32) (harg10 : arg10.IsWhole) (v0 : Vec F S3x64 .bf16) (v2 : Vec F S64x64 .bf16) (v4 : Vec F S64x1 .bf16) (v6 : Vec F S1x64 .f32) (v8 : Vec F S1x64 .f32) (v10 : Vec F S1x1 .f32) (X_arg2 : BufTy.Contents (Elt F) arg2.view.ty) (X_arg3 : BufTy.Contents (Elt F) arg3.view.ty) (k : Fin k0_t1_loop.trips) :
    tripL_k0_t1 (F := F) 𝒱 c bd i arg2 harg2 arg3 harg3 arg4 harg4 arg5 harg5 arg6 harg6 arg7 harg7 arg8 harg8 arg9 harg9 arg10 harg10 v0 v2 v4 v6 v8 v10 X_arg2 X_arg3 k
      = [tripPiece (k0_pay1 v0) (k0_pay2 v2) (k0_pay3 v4) (k0_pay4 v6) (k0_pay5 v8) (k0_pay6 v10)
          (arg2.view.read (Elt F) X_arg2) (arg3.view.read (Elt F) X_arg3) k] := by
  unfold tripL_k0_t1 trip_k0_t1
  dsimp only
  rfl

/-- Every piece the first n trips have written is some trip's piece. -/
theorem pb_pieces (𝒱 : Variants) (c : Dev nD) (bd : Option 𝒱.V) (i : grid0.Coords) (arg2 : Memref sig .tc .vmem S1x128x3x1024 .bf16) (harg2 : arg2.IsWhole) (arg3 : Memref sig .tc .vmem S1x128x1024 .i32) (harg3 : arg3.IsWhole) (arg4 : Memref sig .tc .vmem S3x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S64x1 .bf16) (harg8 : arg8.IsWhole) (arg9 : Memref sig .tc .vmem S1x1 .f32) (harg9 : arg9.IsWhole) (arg10 : Memref sig .tc .vmem S1x128x1024 .f32) (harg10 : arg10.IsWhole) (v0 : Vec F S3x64 .bf16) (v2 : Vec F S64x64 .bf16) (v4 : Vec F S64x1 .bf16) (v6 : Vec F S1x64 .f32) (v8 : Vec F S1x64 .f32) (v10 : Vec F S1x1 .f32) (X_arg2 : BufTy.Contents (Elt F) arg2.view.ty) (X_arg3 : BufTy.Contents (Elt F) arg3.view.ty) :
    ∀ n : Nat, n ≤ k0_t1_loop.trips → ∀ p ∈ pb_k0_t1 (F := F) 𝒱 c bd i arg2 harg2 arg3 harg3 arg4 harg4 arg5 harg5 arg6 harg6 arg7 harg7 arg8 harg8 arg9 harg9 arg10 harg10 v0 v2 v4 v6 v8 v10 X_arg2 X_arg3 n,
      ∃ k : Fin k0_t1_loop.trips, p = tripPiece (k0_pay1 v0) (k0_pay2 v2) (k0_pay3 v4) (k0_pay4 v6) (k0_pay5 v8) (k0_pay6 v10)
          (arg2.view.read (Elt F) X_arg2) (arg3.view.read (Elt F) X_arg3) k
  | 0, _, p, hp => by rw [pb_k0_t1.eq_1] at hp; exact absurd hp List.not_mem_nil
  | n + 1, hn, p, hp => by
    have e := pb_k0_t1_succ (F := F) 𝒱 c bd i arg2 harg2 arg3 harg3 arg4 harg4 arg5 harg5 arg6 harg6 arg7 harg7 arg8 harg8 arg9 harg9 arg10 harg10 v0 v2 v4 v6 v8 v10 X_arg2 X_arg3 ⟨n, hn⟩
    rw [show (⟨n, hn⟩ : Fin k0_t1_loop.trips).val + 1 = n + 1 from rfl] at e
    rw [e, tripL_eq, List.mem_append, List.mem_singleton] at hp
    rcases hp with rfl | hp
    · exact ⟨⟨n, hn⟩, rfl⟩
    · exact pb_pieces 𝒱 c bd i arg2 harg2 arg3 harg3 arg4 harg4 arg5 harg5 arg6 harg6 arg7 harg7 arg8 harg8 arg9 harg9 arg10 harg10 v0 v2 v4 v6 v8 v10 X_arg2 X_arg3 n (Nat.le_of_succ_le hn) p hp

/-! ## On the extended reals: what a grid point leaves in its output block -/

section AtIdeal

open Idealize.ShloMosaic.ValueIdx

theorem zeros2 : (![0, 0] : Fin 2 → Nat) = fun _ => 0 := funext fun a => by fin_cases a <;> rfl

/-- Row 8k + a of the 128-row block: the a-th row of trip k. -/
def rowIx (k : Fin k0_t1_loop.trips) (a : Fin 8) : Fin 128 :=
  ⟨8 * k.val + a.val, by have h1 := k.isLt; have h2 := k0_t1_abs.2.1; have h3 := a.isLt; omega⟩

/-- The output block as a function of the point's input blocks: row r of the block is the softmax, over the 1024
    keys, of the masked perceptron scores of row r of the diff block (feature-major: entry (0, r, d, k)). -/
def blockOut (x0 : Vec Ideal S1x128x3x1024 .bf16) (x1 : Vec Ideal S1x128x1024 .i32) (x2 : Vec Ideal S3x64 .bf16)
    (x3 : Vec Ideal S1x64 .f32) (x4 : Vec Ideal S64x64 .bf16) (x5 : Vec Ideal S1x64 .f32) (x6 : Vec Ideal S64x1 .bf16)
    (x7 : Vec Ideal S1x1 .f32) (r : Fin 128) (j : Fin 1024) : EReal :=
  Cert.Spec.rowSoftmax (fun k : Fin 1024 =>
    Cert.Spec.masked (IntOp.cmpi .ne (x1 (ix3 (0 : Fin 1) r k)) 0#32)
      (Cert.Spec.score (fun d : Fin 3 => x0 (ix4 (0 : Fin 1) r d k)) (fun (d : Fin 3) (h : Fin 64) => x2 (ix2 d h))
        (fun h : Fin 64 => x3 (ix2 (0 : Fin 1) h)) (fun (h : Fin 64) (k' : Fin 64) => x4 (ix2 h k'))
        (fun k' : Fin 64 => x5 (ix2 (0 : Fin 1) k')) (fun k' : Fin 64 => x6 (ix2 k' (0 : Fin 1)))
        (x7 (ix2 (0 : Fin 1) (0 : Fin 1))))) j

/-- Where trip k's piece puts its entry (u, a, j): row 8k + a, column j of the block. -/
theorem piece_emb (k : Fin k0_t1_loop.trips) (u : Fin 1) (a : Fin 8) (j : Fin 1024) :
    (Rect.unit (s := S1x128x1024) (k0_off2 k) S1x8x1024.size (k0_off2_inb k)).emb (ix3 u a j) = ix3 (0 : Fin 1) (rowIx k a) j := by
  have hu : u.val = 0 := by omega
  funext b; apply Fin.ext
  match b with
  | ⟨0, _⟩ => show (k0_off2 k) 0 + 1 * u.val = 0; rw [k0_off2_eq k, hu]; rfl
  | ⟨1, _⟩ => show (k0_off2 k) 1 + 1 * a.val = 8 * k.val + a.val; rw [k0_off2_eq k]; show 8 * k.val + 1 * a.val = _; omega
  | ⟨2, _⟩ => show (k0_off2 k) 2 + 1 * j.val = j.val; rw [k0_off2_eq k]; show 0 + 1 * j.val = _; omega

/-- The mask words trip k loads: entry (0, a, j) is the block's mask at row 8k + a. -/
theorem mask_ld (x1 : Vec Ideal S1x128x1024 .i32) (k : Fin k0_t1_loop.trips) (a : Fin 8) (j : Fin 1024) :
    (View.ld x1 (Rect.unit (s := S1x128x1024) (k0_off2 k) S1x8x1024.size (k0_off2_inb k)) : Vec Ideal S1x8x1024 .i32) (ix3 (0 : Fin 1) a j)
      = x1 (ix3 (0 : Fin 1) (rowIx k a) j) :=
  congrArg x1 (piece_emb k 0 a j)

/-- The slab trip k loads for its a-th row: entry (d, j) is the block's entry (0, 8k + a, d, j). -/
theorem slab_ld (x0 : Vec Ideal S1x128x3x1024 .bf16) (k : Fin k0_t1_loop.trips) (a : Fin 8) (d : Fin 3) (j : Fin 1024) :
    slab (View.ld x0 (Rect.unit (s := S1x128x3x1024) (k0_off1 k (BitVec.ofNat 32 a.val)) S1x1x3x1024.size (k0_off1_inb k a)) :
      Vec Ideal S1x1x3x1024 .bf16) (ix2 d j) = x0 (ix4 (0 : Fin 1) (rowIx k a) d j) := by
  refine (shapeCast_apply _ shapeCasts_S1x1x3x1024_S3x1024 (ix2 d j) (ix4 (0 : Fin 1) (0 : Fin 1) d j) ?_).trans ?_
  · rw [Shape.rowMajor_val_four, Shape.rowMajor_val_two]
    show ((0 * 1 + 0) * 3 + d.val) * 1024 + j.val = d.val * 1024 + j.val
    omega
  · refine congrArg x0 ?_
    funext b; apply Fin.ext
    match b with
    | ⟨0, _⟩ => show (k0_off1 k (BitVec.ofNat 32 a.val)) 0 + 1 * 0 = 0; rw [k0_off1_eq k a]; rfl
    | ⟨1, _⟩ => show (k0_off1 k (BitVec.ofNat 32 a.val)) 1 + 1 * 0 = 8 * k.val + a.val; rw [k0_off1_eq k a]; rfl
    | ⟨2, _⟩ => show (k0_off1 k (BitVec.ofNat 32 a.val)) 2 + 1 * d.val = d.val; rw [k0_off1_eq k a]; show 0 + 1 * d.val = _; omega
    | ⟨3, _⟩ => show (k0_off1 k (BitVec.ofNat 32 a.val)) 3 + 1 * j.val = j.val; rw [k0_off1_eq k a]; show 0 + 1 * j.val = _; omega

end AtIdeal

section AtIdeal2

open Idealize.ShloMosaic.ValueIdx

variable (x0 : Vec Ideal S1x128x3x1024 .bf16) (x1 : Vec Ideal S1x128x1024 .i32) (x2 : Vec Ideal S3x64 .bf16)
  (x3 : Vec Ideal S1x64 .f32) (x4 : Vec Ideal S64x64 .bf16) (x5 : Vec Ideal S1x64 .f32) (x6 : Vec Ideal S64x1 .bf16)
  (x7 : Vec Ideal S1x1 .f32)

/-- The block function on block indices. -/
def blockFn : S1x128x1024.Idx → EReal := fun y => blockOut x0 x1 x2 x3 x4 x5 x6 x7 (y 1) (y 2)

/-- Entry (a, j) of trip k's tile: the masked score of row 8k + a at key j. -/
theorem tripTile_apply (k : Fin k0_t1_loop.trips) (a : Fin 8) (j : Fin 1024) :
    tripTile (k0_pay1 x2) (k0_pay2 x4) (k0_pay3 x6) (k0_pay4 x3) (k0_pay5 x5) (k0_pay6 x7) x0 x1 k (ix2 a j)
      = Cert.Spec.masked (IntOp.cmpi .ne (x1 (ix3 (0 : Fin 1) (rowIx k a) j)) 0#32)
          (Cert.Spec.score (fun d : Fin 3 => x0 (ix4 (0 : Fin 1) (rowIx k a) d j)) (fun (d : Fin 3) (h : Fin 64) => x2 (ix2 d h))
            (fun h : Fin 64 => x3 (ix2 (0 : Fin 1) h)) (fun (h : Fin 64) (k' : Fin 64) => x4 (ix2 h k'))
            (fun k' : Fin 64 => x5 (ix2 (0 : Fin 1) k')) (fun k' : Fin 64 => x6 (ix2 k' (0 : Fin 1)))
            (x7 (ix2 (0 : Fin 1) (0 : Fin 1)))) := by
  have e1 : k0_pay1 x2 = x2 := shapeCast_self x2 _
  have e2 : k0_pay2 x4 = x4 := shapeCast_self x4 _
  have e3 : k0_pay3 x6 = x6 := shapeCast_self x6 _
  have e4 : k0_pay4 x3 = x3 := shapeCast_self x3 _
  have e5 : k0_pay5 x5 = x5 := shapeCast_self x5 _
  have e6 : k0_pay6 x7 = x7 := shapeCast_self x7 _
  rw [e1, e2, e3, e4, e5, e6]
  refine (maskedTile_apply (tripCol x2 x4 x6 x3 x5 x7 x0 k) _ a j).trans ?_
  rw [mask_ld x1 k a j]
  refine congrArg (Cert.Spec.masked _) ?_
  refine (rowScore_apply x2 x4 x6 x3 x5 x7 _ j).trans ?_
  simp only [slab_ld x0 k a]

/-- Trip k's piece holds, entry by entry, the block function at the place the piece puts the entry. -/
theorem tripPiece_restricts (k : Fin k0_t1_loop.trips)
    (x : (tripPiece (k0_pay1 x2) (k0_pay2 x4) (k0_pay3 x6) (k0_pay4 x3) (k0_pay5 x5) (k0_pay6 x7) x0 x1 k).1.shape.Idx) :
    (tripPiece (k0_pay1 x2) (k0_pay2 x4) (k0_pay3 x6) (k0_pay4 x3) (k0_pay5 x5) (k0_pay6 x7) x0 x1 k).2 x
      = blockFn x0 x1 x2 x3 x4 x5 x6 x7 ((tripPiece (k0_pay1 x2) (k0_pay2 x4) (k0_pay3 x6) (k0_pay4 x3) (k0_pay5 x5) (k0_pay6 x7) x0 x1 k).1.emb x) := by
  obtain ⟨u, a, j, rfl⟩ : ∃ (u : Fin 1) (a : Fin 8) (j : Fin 1024), x = ix3 u a j := ⟨x 0, x 1, x 2, eq_ix3 x⟩
  show k0_pay7 (tripTile (k0_pay1 x2) (k0_pay2 x4) (k0_pay3 x6) (k0_pay4 x3) (k0_pay5 x5) (k0_pay6 x7) x0 x1 k) (ix3 u a j)
    = blockFn x0 x1 x2 x3 x4 x5 x6 x7 ((Rect.unit (s := S1x128x1024) (k0_off2 k) S1x8x1024.size (k0_off2_inb k)).emb (ix3 u a j))
  rw [piece_emb k u a j, softmaxPay_apply]
  show _ = blockOut x0 x1 x2 x3 x4 x5 x6 x7 (rowIx k a) j
  unfold blockOut
  refine congrArg (fun z => Cert.Spec.rowSoftmax z j) (funext fun k' => ?_)
  exact tripTile_apply x0 x1 x2 x3 x4 x5 x6 x7 k a k'

end AtIdeal2

/-- Every piece a whole run of the body leaves in the output's staging buffer is some trip's piece, over the
    point's input blocks (the six small operands are loaded whole, once, before the loop). -/
theorem run_pieces (c : Dev nD) (i : grid0.Coords) (arg2 : Memref sig .tc .vmem S1x128x3x1024 .bf16) (harg2 : arg2.IsWhole) (arg3 : Memref sig .tc .vmem S1x128x1024 .i32) (harg3 : arg3.IsWhole) (arg4 : Memref sig .tc .vmem S3x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S64x1 .bf16) (harg8 : arg8.IsWhole) (arg9 : Memref sig .tc .vmem S1x1 .f32) (harg9 : arg9.IsWhole) (arg10 : Memref sig .tc .vmem S1x128x1024 .f32) (harg10 : arg10.IsWhole)
    (x0 : Vec F S1x128x3x1024 .bf16) (x1 : Vec F S1x128x1024 .i32) (x2 : Vec F S3x64 .bf16) (x3 : Vec F S1x64 .f32) (x4 : Vec F S64x64 .bf16) (x5 : Vec F S1x64 .f32) (x6 : Vec F S64x1 .bf16) (x7 : Vec F S1x1 .f32) :
    ∀ p ∈ (kernelRun0_A (F := F) c i arg2 harg2 arg3 harg3 arg4 harg4 arg5 harg5 arg6 harg6 arg7 harg7 arg8 harg8 arg9 harg9 arg10 harg10 x0 x1 x2 x3 x4 x5 x6 x7).1,
      ∃ k : Fin k0_t1_loop.trips, p = tripPiece (k0_pay1 x2) (k0_pay2 x4) (k0_pay3 x6) (k0_pay4 x3) (k0_pay5 x5) (k0_pay6 x7) x0 x1 k := by
  intro p hp
  unfold kernelRun0_A at hp
  dsimp only at hp
  obtain ⟨k, hk⟩ := pb_pieces Variants.none c none i arg2 harg2 arg3 harg3 arg4 harg4 arg5 harg5 arg6 harg6 arg7 harg7 arg8 harg8 arg9 harg9 arg10 harg10 _ _ _ _ _ _ _ _ _ le_rfl p hp
  refine ⟨k, hk.trans ?_⟩
  simp only [View.readAt_eq_ld, Memref.IsWhole.read_unread, View.ld_unit_zero (S := S3x64) zeros2,
    View.ld_unit_zero (S := S64x64) zeros2, View.ld_unit_zero (S := S64x1) zeros2, View.ld_unit_zero (S := S1x64) zeros2,
    View.ld_unit_zero (S := S1x1) zeros2]

/-- WHAT A POINT LEAVES in the output's staging buffer: the block function of its input blocks. The sixteen trips'
    pieces tile the block, and each holds the block function where it lies. -/
theorem out_eq (c : Dev nD) (i : grid0.Coords) (arg2 : Memref sig .tc .vmem S1x128x3x1024 .bf16) (harg2 : arg2.IsWhole) (arg3 : Memref sig .tc .vmem S1x128x1024 .i32) (harg3 : arg3.IsWhole) (arg4 : Memref sig .tc .vmem S3x64 .bf16) (harg4 : arg4.IsWhole) (arg5 : Memref sig .tc .vmem S1x64 .f32) (harg5 : arg5.IsWhole) (arg6 : Memref sig .tc .vmem S64x64 .bf16) (harg6 : arg6.IsWhole) (arg7 : Memref sig .tc .vmem S1x64 .f32) (harg7 : arg7.IsWhole) (arg8 : Memref sig .tc .vmem S64x1 .bf16) (harg8 : arg8.IsWhole) (arg9 : Memref sig .tc .vmem S1x1 .f32) (harg9 : arg9.IsWhole) (arg10 : Memref sig .tc .vmem S1x128x1024 .f32) (harg10 : arg10.IsWhole)
    (x0 : Vec Ideal S1x128x3x1024 .bf16) (x1 : Vec Ideal S1x128x1024 .i32) (x2 : Vec Ideal S3x64 .bf16) (x3 : Vec Ideal S1x64 .f32) (x4 : Vec Ideal S64x64 .bf16) (x5 : Vec Ideal S1x64 .f32) (x6 : Vec Ideal S64x1 .bf16) (x7 : Vec Ideal S1x1 .f32) :
    out0_A_8 (F := Ideal) c i arg2 harg2 arg3 harg3 arg4 harg4 arg5 harg5 arg6 harg6 arg7 harg7 arg8 harg8 arg9 harg9 arg10 harg10 x0 x1 x2 x3 x4 x5 x6 x7 = blockFn x0 x1 x2 x3 x4 x5 x6 x7 := by
  unfold out0_A_8
  funext y
  refine View.read_writes_apply_of_pieces VO0_8 (VO0_8.junk) (blockFn x0 x1 x2 x3 x4 x5 x6 x7) _ (fun p hp => ?_) y
    (cover0_A_8 c i arg2 harg2 arg3 harg3 arg4 harg4 arg5 harg5 arg6 harg6 arg7 harg7 arg8 harg8 arg9 harg9 arg10 harg10 x0 x1 x2 x3 x4 x5 x6 x7 y)
  obtain ⟨k, rfl⟩ := run_pieces c i arg2 harg2 arg3 harg3 arg4 harg4 arg5 harg5 arg6 harg6 arg7 harg7 arg8 harg8 arg9 harg9 arg10 harg10 x0 x1 x2 x3 x4 x5 x6 x7 p hp
  exact tripPiece_restricts x0 x1 x2 x3 x4 x5 x6 x7 k

end Cert.KernelIdeal.Rows

end
-- ==== Proof.KernelValue.lean ====
/-
  From blocks to the array: the kernel's result array after the run is the specified function of the arguments.

  Before the call the program casts diff to bf16 and swaps its last two axes (so a row's slab is feature-major),
  casts the three weight matrices to bf16, reshapes each bias to a one-row matrix and widens the mask bits to words;
  on the extended reals the casts are the identity, so each staged array is the argument re-laid. Grid point t = (p, q)
  stages batch entry p, rows 128q … 128q + 127 of diff and of the mask, and the six small operands whole; what it
  writes back is the block function of those blocks, which, read where the output's block says, is block t of
  `Cert.Spec.G` of the arguments (a widened mask bit is nonzero exactly when the bit is set). The 32 output blocks
  cover the 4 × 1024 × 1024 result (index (p, r, j) lies in the block of point (p, r / 128)), so the array ends at `G`.
-/
import proofs.«415036_j4303557231270_3_alg».proof.Proof.Gen.KernelIdeal.Value
import proofs.«415036_j4303557231270_3_alg».proof.Proof.KernelBlock
import proofs.«415036_j4303557231270_3_alg».proof.Proof.Spec
import Idealize.ShloMosaic.Lib.StableHlo.Run

set_option maxRecDepth 16384

noncomputable section

namespace Cert.KernelIdeal.Rows

open Cert.KernelIdeal Cert.KernelIdeal.Gen Idealize.ShloMosaic Idealize.ShloMosaic.TcCoe Idealize.ShloMosaic.ValueIdx
open Idealize.SL Idealize.SL.Sem Idealize.ShloMosaic.StableHlo
open Idealize.ShloMosaic.Pipeline (Dat)

variable (m : (ℓ : Loc nD τ sig) → Buf (Elt Ideal) ℓ) (ρ : Dev nD → PrngReg)

/-! ## The arrays the region finds: each window's array as the operations of @main before the call leave it -/

theorem V_diff (c : Dev nD) : (V m c main_v1 : S4x1024x3x1024.Idx → EReal)
    = transpose S4x1024x3x1024 [0, 1, 3, 2] (truncf (F := Ideal) .bf16 (m ((c : Thread nD τ).loc main_arg0)) bitsLt_bf16_f32)
        transposes_S4x1024x1024x3_S4x1024x3x1024_0_1_3_2 := by
  dsimp only [Gen.V, Gen.hostOps0]; after_results; try rfl

theorem V_mask (c : Dev nD) : (V m c main_v8 : S4x1024x1024.Idx → BitVec 32)
    = extui 32 (m ((c : Thread nD τ).loc main_arg1)) natLt_1_32 := by
  dsimp only [Gen.V, Gen.hostOps0]; after_results; try rfl

theorem V_w1 (c : Dev nD) : (V m c main_v2 : S3x64.Idx → EReal)
    = truncf (F := Ideal) .bf16 (m ((c : Thread nD τ).loc main_arg2)) bitsLt_bf16_f32 := by
  dsimp only [Gen.V, Gen.hostOps0]; after_results; try rfl

theorem V_w2 (c : Dev nD) : (V m c main_v3 : S64x64.Idx → EReal)
    = truncf (F := Ideal) .bf16 (m ((c : Thread nD τ).loc main_arg4)) bitsLt_bf16_f32 := by
  dsimp only [Gen.V, Gen.hostOps0]; after_results; try rfl

theorem V_w3 (c : Dev nD) : (V m c main_v4 : S64x1.Idx → EReal)
    = truncf (F := Ideal) .bf16 (m ((c : Thread nD τ).loc main_arg6)) bitsLt_bf16_f32 := by
  dsimp only [Gen.V, Gen.hostOps0]; after_results; try rfl

theorem V_b1 (c : Dev nD) : (V m c main_v5 : S1x64.Idx → EReal)
    = shapeCast S1x64 (m ((c : Thread nD τ).loc main_arg3)) shapeCasts_S64_S1x64 := by
  dsimp only [Gen.V, Gen.hostOps0]; after_results; try rfl

theorem V_b2 (c : Dev nD) : (V m c main_v6 : S1x64.Idx → EReal)
    = shapeCast S1x64 (m ((c : Thread nD τ).loc main_arg5)) shapeCasts_S64_S1x64 := by
  dsimp only [Gen.V, Gen.hostOps0]; after_results; try rfl

theorem V_b3 (c : Dev nD) : (V m c main_v7 : S1x1.Idx → EReal)
    = shapeCast S1x1 (m ((c : Thread nD τ).loc main_arg7)) shapeCasts_S1_S1x1 := by
  dsimp only [Gen.V, Gen.hostOps0]; after_results; try rfl

/-! ## The index maps over the 4 × 8 grid -/

/-- Point t's output block is batch entry index₀, rows 128·index₁ …; the diff and mask blocks move with it, the six
    small operands are whole at every point. Decided over the 32 points. -/
theorem idx_facts : ∀ t : Fin cfg0.N,
    win0_0.index t (0 : Fin 4) = win0_8.index t (0 : Fin 3) ∧ win0_0.index t (1 : Fin 4) = win0_8.index t (1 : Fin 3)
    ∧ win0_0.index t (2 : Fin 4) = 0 ∧ win0_0.index t (3 : Fin 4) = 0
    ∧ win0_1.index t (0 : Fin 3) = win0_8.index t (0 : Fin 3) ∧ win0_1.index t (1 : Fin 3) = win0_8.index t (1 : Fin 3)
    ∧ win0_1.index t (2 : Fin 3) = 0 ∧ win0_8.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) ≤ 3 ∧ win0_8.index t (1 : Fin 3) ≤ 7 :=
  (by decide +kernel : ∀ t : Fin grid0.N, _)

/-- Every (batch entry, row tile) is some point's. -/
theorem idx_onto : ∀ (q0 : Fin 4) (q1 : Fin 8), ∃ t : Fin cfg0.N, win0_8.index t = ![q0.val, q1.val, 0] :=
  (by decide +kernel : ∀ (q0 : Fin 4) (q1 : Fin 8), ∃ t : Fin grid0.N, win0_8.index t = ![q0.val, q1.val, 0])

/-- Point t's batch entry. -/
def bp (t : Fin cfg0.N) : Fin 4 := ⟨win0_8.index t (0 : Fin 3), by have h := (idx_facts t).2.2.2.2.2.2.2.2.2.2.2.2.2.2.2.2.2.2.2.2.1; omega⟩

/-- Row r of point t's blocks is this row of the arrays. -/
def bq (t : Fin cfg0.N) (r : Fin 128) : Fin 1024 :=
  ⟨win0_8.index t (1 : Fin 3) * 128 + r.val, by have h := (idx_facts t).2.2.2.2.2.2.2.2.2.2.2.2.2.2.2.2.2.2.2.2.2; have := r.isLt; omega⟩

/-! ## A point's input blocks, read where the output's block says -/

/-- The point's input blocks, by their literal types. -/
abbrev xb0 (c : Dev nD) (t : Fin cfg0.N) : Vec Ideal S1x128x3x1024 .bf16 := iblk m c 0 t
abbrev xb1 (c : Dev nD) (t : Fin cfg0.N) : Vec Ideal S1x128x1024 .i32 := iblk m c 1 t
abbrev xb2 (c : Dev nD) (t : Fin cfg0.N) : Vec Ideal S3x64 .bf16 := iblk m c 2 t
abbrev xb3 (c : Dev nD) (t : Fin cfg0.N) : Vec Ideal S1x64 .f32 := iblk m c 3 t
abbrev xb4 (c : Dev nD) (t : Fin cfg0.N) : Vec Ideal S64x64 .bf16 := iblk m c 4 t
abbrev xb5 (c : Dev nD) (t : Fin cfg0.N) : Vec Ideal S1x64 .f32 := iblk m c 5 t
abbrev xb6 (c : Dev nD) (t : Fin cfg0.N) : Vec Ideal S64x1 .bf16 := iblk m c 6 t
abbrev xb7 (c : Dev nD) (t : Fin cfg0.N) : Vec Ideal S1x1 .f32 := iblk m c 7 t

/-- The diff block is feature-major: its entry (0, r, d, k) is diff[batch, row, k, d]. -/
theorem xb0_apply (c : Dev nD) (t : Fin cfg0.N) (r : Fin 128) (d : Fin 3) (k : Fin 1024) :
    xb0 m c t (ix4 (0 : Fin 1) r d k) = m ((c : Thread nD τ).loc main_arg0) (ix4 (bp t) (bq t r) k d) := by
  obtain ⟨e0, e1, e2, e3, -⟩ := idx_facts t
  show V m c main_v1 (((cfg0.win 0).blk t).view.emb (ix4 (0 : Fin 1) r d k)) = _
  rw [V_diff]
  refine (transpose_apply _ _ transposes_S4x1024x1024x3_S4x1024x3x1024_0_1_3_2 _ (ix4 (bp t) (bq t r) k d) ?_).trans rfl
  intro b
  match b with
  | ⟨0, _⟩ => show win0_8.index t (0 : Fin 3) = win0_0.index t (0 : Fin 4) * 1 + 1 * 0; omega
  | ⟨1, _⟩ => show win0_8.index t (1 : Fin 3) * 128 + r.val = win0_0.index t (1 : Fin 4) * 128 + 1 * r.val; omega
  | ⟨2, _⟩ => show d.val = win0_0.index t (2 : Fin 4) * 3 + 1 * d.val; omega
  | ⟨3, _⟩ => show k.val = win0_0.index t (3 : Fin 4) * 1024 + 1 * k.val; omega

/-- The mask block holds the mask bits widened to words. -/
theorem xb1_apply (c : Dev nD) (t : Fin cfg0.N) (r : Fin 128) (k : Fin 1024) :
    xb1 m c t (ix3 (0 : Fin 1) r k) = (m ((c : Thread nD τ).loc main_arg1) (ix3 (bp t) (bq t r) k)).setWidth 32 := by
  obtain ⟨-, -, -, -, e0, e1, e2, -⟩ := idx_facts t
  show V m c main_v8 (((cfg0.win 1).blk t).view.emb (ix3 (0 : Fin 1) r k)) = _
  rw [V_mask]
  show (m ((c : Thread nD τ).loc main_arg1) (((cfg0.win 1).blk t).view.emb (ix3 (0 : Fin 1) r k))).setWidth 32 = _
  refine congrArg (fun i => (m ((c : Thread nD τ).loc main_arg1) i).setWidth 32) ?_
  funext b; apply Fin.ext
  match b with
  | ⟨0, _⟩ => show win0_1.index t (0 : Fin 3) * 1 + 1 * 0 = win0_8.index t (0 : Fin 3); omega
  | ⟨1, _⟩ => show win0_1.index t (1 : Fin 3) * 128 + 1 * r.val = win0_8.index t (1 : Fin 3) * 128 + r.val; omega
  | ⟨2, _⟩ => show win0_1.index t (2 : Fin 3) * 1024 + 1 * k.val = k.val; omega

/-- The six small operands are staged whole: the weights unchanged, each bias as a one-row matrix. -/
theorem xb2_apply (c : Dev nD) (t : Fin cfg0.N) (d : Fin 3) (h : Fin 64) :
    xb2 m c t (ix2 d h) = m ((c : Thread nD τ).loc main_arg2) (ix2 d h) := by
  obtain ⟨-, -, -, -, -, -, -, -, e0, e1, -⟩ := idx_facts t
  show V m c main_v2 (((cfg0.win 2).blk t).view.emb (ix2 d h)) = _
  rw [V_w1]
  refine congrArg (m ((c : Thread nD τ).loc main_arg2)) ?_
  funext b; apply Fin.ext
  match b with
  | ⟨0, _⟩ => show win0_2.index t (0 : Fin 2) * 3 + 1 * d.val = d.val; omega
  | ⟨1, _⟩ => show win0_2.index t (1 : Fin 2) * 64 + 1 * h.val = h.val; omega

theorem xb4_apply (c : Dev nD) (t : Fin cfg0.N) (h : Fin 64) (k : Fin 64) :
    xb4 m c t (ix2 h k) = m ((c : Thread nD τ).loc main_arg4) (ix2 h k) := by
  obtain ⟨-, -, -, -, -, -, -, -, -, -, -, -, e0, e1, -⟩ := idx_facts t
  show V m c main_v3 (((cfg0.win 4).blk t).view.emb (ix2 h k)) = _
  rw [V_w2]
  refine congrArg (m ((c : Thread nD τ).loc main_arg4)) ?_
  funext b; apply Fin.ext
  match b with
  | ⟨0, _⟩ => show win0_4.index t (0 : Fin 2) * 64 + 1 * h.val = h.val; omega
  | ⟨1, _⟩ => show win0_4.index t (1 : Fin 2) * 64 + 1 * k.val = k.val; omega

theorem xb6_apply (c : Dev nD) (t : Fin cfg0.N) (k : Fin 64) :
    xb6 m c t (ix2 k (0 : Fin 1)) = m ((c : Thread nD τ).loc main_arg6) (ix2 k (0 : Fin 1)) := by
  obtain ⟨-, -, -, -, -, -, -, -, -, -, -, -, -, -, -, -, e0, e1, -⟩ := idx_facts t
  show V m c main_v4 (((cfg0.win 6).blk t).view.emb (ix2 k (0 : Fin 1))) = _
  rw [V_w3]
  refine congrArg (m ((c : Thread nD τ).loc main_arg6)) ?_
  funext b; apply Fin.ext
  match b with
  | ⟨0, _⟩ => show win0_6.index t (0 : Fin 2) * 64 + 1 * k.val = k.val; omega
  | ⟨1, _⟩ => show win0_6.index t (1 : Fin 2) * 1 + 1 * 0 = 0; omega

theorem xb3_apply (c : Dev nD) (t : Fin cfg0.N) (h : Fin 64) :
    xb3 m c t (ix2 (0 : Fin 1) h) = m ((c : Thread nD τ).loc main_arg3) (ix1 h) := by
  obtain ⟨-, -, -, -, -, -, -, -, -, -, e0, e1, -⟩ := idx_facts t
  show V m c main_v5 (((cfg0.win 3).blk t).view.emb (ix2 (0 : Fin 1) h)) = _
  rw [V_b1]
  refine shapeCast_apply _ shapeCasts_S64_S1x64 _ (ix1 h) ?_
  rw [Shape.rowMajor_val_one, Shape.rowMajor_val_two]
  show h.val = (win0_3.index t (0 : Fin 2) * 1 + 1 * 0) * 64 + (win0_3.index t (1 : Fin 2) * 64 + 1 * h.val)
  omega

theorem xb5_apply (c : Dev nD) (t : Fin cfg0.N) (k : Fin 64) :
    xb5 m c t (ix2 (0 : Fin 1) k) = m ((c : Thread nD τ).loc main_arg5) (ix1 k) := by
  obtain ⟨-, -, -, -, -, -, -, -, -, -, -, -, -, -, e0, e1, -⟩ := idx_facts t
  show V m c main_v6 (((cfg0.win 5).blk t).view.emb (ix2 (0 : Fin 1) k)) = _
  rw [V_b2]
  refine shapeCast_apply _ shapeCasts_S64_S1x64 _ (ix1 k) ?_
  rw [Shape.rowMajor_val_one, Shape.rowMajor_val_two]
  show k.val = (win0_5.index t (0 : Fin 2) * 1 + 1 * 0) * 64 + (win0_5.index t (1 : Fin 2) * 64 + 1 * k.val)
  omega

theorem xb7_apply (c : Dev nD) (t : Fin cfg0.N) :
    xb7 m c t (ix2 (0 : Fin 1) (0 : Fin 1)) = m ((c : Thread nD τ).loc main_arg7) (ix1 (0 : Fin 1)) := by
  obtain ⟨-, -, -, -, -, -, -, -, -, -, -, -, -, -, -, -, -, -, e0, e1, -⟩ := idx_facts t
  show V m c main_v7 (((cfg0.win 7).blk t).view.emb (ix2 (0 : Fin 1) (0 : Fin 1))) = _
  rw [V_b3]
  refine shapeCast_apply _ shapeCasts_S1_S1x1 _ (ix1 (0 : Fin 1)) ?_
  rw [Shape.rowMajor_val_one, Shape.rowMajor_val_two]
  show 0 = (win0_7.index t (0 : Fin 2) * 1 + 1 * 0) * 1 + (win0_7.index t (1 : Fin 2) * 1 + 1 * 0)
  omega

/-- A one-bit mask widened to a word is nonzero exactly when the bit is set. -/
theorem ne_zero_widened (b : BitVec 1) : IntOp.cmpi .ne (b.setWidth 32) 0#32 = b := by
  match b with
  | ⟨⟨0, _⟩⟩ => rfl
  | ⟨⟨1, _⟩⟩ => rfl
  | ⟨⟨n + 2, h⟩⟩ => exact absurd h (by omega)

/-! ## What a point writes back, the cover, and the array after the run -/

/-- WHAT POINT t WRITES BACK is block t of the specified function of the arguments: the block function of the point's
    input blocks, each read where the output's block says. -/
theorem flushed_eq (c : Dev nD) (t : Fin cfg0.N) :
    (dats m 0 c).flushed 8 t = ((cfg0.win 8).blk t).view.read (Elt Ideal) (Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed8_A, out_eq]
  obtain ⟨-, -, -, -, -, -, -, e2, -⟩ := idx_facts t
  funext y
  obtain ⟨u, r, j, rfl⟩ : ∃ (u : Fin 1) (r : Fin 128) (j : Fin 1024), y = ix3 u r j := ⟨y 0, y 1, y 2, eq_ix3 y⟩
  have hu : u.val = 0 := by omega
  have hemb : ((cfg0.win 8).blk t).view.emb (ix3 u r j) = ix3 (bp t) (bq t r) j := by
    funext b; apply Fin.ext
    match b with
    | ⟨0, _⟩ => show win0_8.index t (0 : Fin 3) * 1 + 1 * u.val = win0_8.index t (0 : Fin 3); omega
    | ⟨1, _⟩ => show win0_8.index t (1 : Fin 3) * 128 + 1 * r.val = win0_8.index t (1 : Fin 3) * 128 + r.val; omega
    | ⟨2, _⟩ => show win0_8.index t (2 : Fin 3) * 1024 + 1 * j.val = j.val; omega
  show blockOut (xb0 m c t) (xb1 m c t) (xb2 m c t) (xb3 m c t) (xb4 m c t) (xb5 m c t) (xb6 m c t) (xb7 m c t) r j
    = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb (ix3 u r j))
  rw [hemb]
  show _ = Cert.Spec.rowSoftmax (Cert.Spec.zrow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bp t) (bq t r)) j
  unfold blockOut
  refine congrArg (fun z => Cert.Spec.rowSoftmax z j) (funext fun k => ?_)
  unfold Cert.Spec.zrow
  rw [xb1_apply, ne_zero_widened, xb7_apply]
  simp only [xb0_apply, xb2_apply, xb3_apply, xb4_apply, xb5_apply, xb6_apply]

/-- An index of the result array is in point t's block iff each coordinate is in the block's range. -/
theorem mem_blk (t : Fin cfg0.N) (i : S4x1024x1024.Idx) :
    i ∈ ((cfg0.win 8).blk t).view.set ↔ ∀ a : Fin 3, win0_8.index t a * S1x128x1024.size a ≤ (i a).val ∧ (i a).val < win0_8.index t a * S1x128x1024.size a + S1x128x1024.size a := by
  show i ∈ ((View.whole main_v9).slice (win0_8.rect t)).set ↔ _
  rw [View.set_slice_whole, Rect.mem_set_unit]
  exact Iff.rfl

/-- Every index of the result array lies in some point's block: batch entry i₀, row tile i₁ / 128. -/
theorem covered (i : S4x1024x1024.Idx) : ∃ t : Fin cfg0.N, (cfg0.win 8).flush t = true ∧ i ∈ ((cfg0.win 8).blk t).view.set := by
  have h0 : (i 0).val < 4 := (i 0).isLt
  have h1 : (i 1).val < 1024 := (i 1).isLt
  have h2 : (i 2).val < 1024 := (i 2).isLt
  obtain ⟨t, ht⟩ := idx_onto ⟨(i 0).val, h0⟩ ⟨(i 1).val / 128, by omega⟩
  have q0 : win0_8.index t (0 : Fin 3) = (i 0).val := congrFun ht 0
  have q1 : win0_8.index t (1 : Fin 3) = (i 1).val / 128 := congrFun ht 1
  have q2 : win0_8.index t (2 : Fin 3) = 0 := congrFun ht 2
  refine ⟨t, flush0_8 t, ?_⟩
  rw [mem_blk]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 128 ≤ (i 1).val ∧ (i 1).val < win0_8.index t (1 : Fin 3) * 128 + 128; omega
  | ⟨2, _⟩ => show win0_8.index t (2 : Fin 3) * 1024 ≤ (i 2).val ∧ (i 2).val < win0_8.index t (2 : Fin 3) * 1024 + 1024; omega

/-- THE RESULT ARRAY after the run is the specified function of the arguments. -/
theorem final (c : Dev nD) : (dats m 0 c).arrAt 8 cfg0.N = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 (Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed_eq m c t) covered

/-- The kernel's run: every weakly fair execution ends with the result array at the specified function of the
    arguments and the arguments unchanged. -/
theorem run : θ_run defs (onTc (τ := τ) (main (F := Ideal))) ⟨m, fun _ => 0, ρ⟩ fun r => ∀ c : Dev nD,
      r.2.mem ((c : Thread nD τ).loc main_v9) = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Rows

end
-- ==== Proof.RefIsSpec.lean ====
/-
  The reference program's result, read one operation at a time, is the specified function of its arguments.
-/
import proofs.«415036_j4303557231270_3_alg».proof.Proof.Gen.ReferenceIdeal.Read
import proofs.«415036_j4303557231270_3_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The stages of the reference at explicit coordinates -/

section Stages

variable (x0 : (⟨S4x1024x1024x3, .f32⟩ : BufTy).Contents (Elt Ideal)) (x1 : (⟨S4x1024x1024, .i1⟩ : BufTy).Contents (Elt Ideal))
    (x2 : (⟨S3x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal))

/-- First layer: the reference's relu of the first einsum plus bias, at (p, r, j, h), is the specified hidden unit. -/
theorem v4_at (p : Fin 4) (r j : Fin 1024) (h : Fin 64) :
    val_main_v4 (F := Ideal) x0 x2 x3 (ix4 p r j h)
      = Cert.Spec.hidden1 (fun d : Fin 3 => x0 (ix4 p r j d)) (fun (d : Fin 3) (h : Fin 64) => x2 (ix2 d h))
          (fun h : Fin 64 => x3 (ix1 h)) h := by
  rw [val_main_v4_apply, val_main_v3_apply, val_main_v0_apply, val_main_v2_apply, val_main_v1_apply,
    val_main_call0_v0_apply, val_main_call0_cst_apply]
  have el : ∀ k : Fin 3, lidx_main_v0 (ix4 p r j h) k = ix4 p r j k := fun k => funext fun a => Fin.ext (by
    match a with | ⟨0, _⟩ => rfl | ⟨1, _⟩ => rfl | ⟨2, _⟩ => rfl | ⟨3, _⟩ => rfl)
  have er : ∀ k : Fin 3, ridx_main_v0 (ix4 p r j h) k = ix2 k h := fun k => funext fun a => Fin.ext (by
    match a with | ⟨0, _⟩ => rfl | ⟨1, _⟩ => rfl)
  have eb : idx_main_v1 (idx_main_v2 (ix4 p r j h)) = ix1 h := funext fun a => Fin.ext (by
    match a with | ⟨0, _⟩ => rfl)
  simp only [el, er, eb]
  rfl

/-- Second layer at (p, r, j, k). -/
theorem v9_at (p : Fin 4) (r j : Fin 1024) (k : Fin 64) :
    val_main_v9 (F := Ideal) x0 x2 x3 x4 x5 (ix4 p r j k)
      = Cert.Spec.hidden2
          (Cert.Spec.hidden1 (fun d : Fin 3 => x0 (ix4 p r j d)) (fun (d : Fin 3) (h : Fin 64) => x2 (ix2 d h))
            (fun h : Fin 64 => x3 (ix1 h)))
          (fun (h : Fin 64) (k : Fin 64) => x4 (ix2 h k)) (fun k : Fin 64 => x5 (ix1 k)) k := by
  rw [val_main_v9_apply, val_main_v8_apply, val_main_v5_apply, val_main_v7_apply, val_main_v6_apply,
    val_main_call1_v0_apply, val_main_call1_cst_apply]
  have el : ∀ h : Fin 64, lidx_main_v5 (ix4 p r j k) h = ix4 p r j h := fun h => funext fun a => Fin.ext (by
    match a with | ⟨0, _⟩ => rfl | ⟨1, _⟩ => rfl | ⟨2, _⟩ => rfl | ⟨3, _⟩ => rfl)
  have er : ∀ h : Fin 64, ridx_main_v5 (ix4 p r j k) h = ix2 h k := fun h => funext fun a => Fin.ext (by
    match a with | ⟨0, _⟩ => rfl | ⟨1, _⟩ => rfl)
  have eb : idx_main_v6 (idx_main_v7 (ix4 p r j k)) = ix1 k := funext fun a => Fin.ext (by
    match a with | ⟨0, _⟩ => rfl)
  simp only [el, er, eb, v4_at]
  rfl

/-- The reshape's source index over (p, r, j) is (p, r, j, 0). -/
theorem idx14_at (p : Fin 4) (r j : Fin 1024) : idx_main_v14 (ix3 p r j) = ix4 p r j (0 : Fin 1) :=
  funext fun a => Fin.ext (by
    have hp := p.isLt; have hr := r.isLt; have hj := j.isLt
    match a with
    | ⟨0, _⟩ => show ((p.val * 1024 + r.val) * 1024 + j.val) / 1048576 = p.val; omega
    | ⟨1, _⟩ => show ((p.val * 1024 + r.val) * 1024 + j.val) / 1024 % 1024 = r.val; omega
    | ⟨2, _⟩ => show ((p.val * 1024 + r.val) * 1024 + j.val) / 1 % 1024 = j.val; omega
    | ⟨3, _⟩ => rfl)

/-- The score at (p, r, j). -/
theorem v14_at (p : Fin 4) (r j : Fin 1024) :
    val_main_v14 (F := Ideal) x0 x2 x3 x4 x5 x6 x7 (ix3 p r j)
      = Cert.Spec.score (fun d : Fin 3 => x0 (ix4 p r j d)) (fun (d : Fin 3) (h : Fin 64) => x2 (ix2 d h))
          (fun h : Fin 64 => x3 (ix1 h)) (fun (h : Fin 64) (k : Fin 64) => x4 (ix2 h k)) (fun k : Fin 64 => x5 (ix1 k))
          (fun k : Fin 64 => x6 (ix2 k (0 : Fin 1))) (x7 (ix1 (0 : Fin 1))) := by
  rw [val_main_v14_apply, idx14_at, val_main_v13_apply, val_main_v10_apply, val_main_v12_apply, val_main_v11_apply]
  have el : ∀ k : Fin 64, lidx_main_v10 (ix4 p r j (0 : Fin 1)) k = ix4 p r j k := fun k => funext fun a => Fin.ext (by
    match a with | ⟨0, _⟩ => rfl | ⟨1, _⟩ => rfl | ⟨2, _⟩ => rfl | ⟨3, _⟩ => rfl)
  have er : ∀ k : Fin 64, ridx_main_v10 (ix4 p r j (0 : Fin 1)) k = ix2 k (0 : Fin 1) := fun k => funext fun a => Fin.ext (by
    match a with | ⟨0, _⟩ => rfl | ⟨1, _⟩ => rfl)
  have eb : idx_main_v11 (idx_main_v12 (ix4 p r j (0 : Fin 1))) = ix1 (0 : Fin 1) := funext fun a => Fin.ext (by
    match a with | ⟨0, _⟩ => rfl)
  simp only [el, er, eb, v9_at]
  rfl

/-- The masked score at (p, r, j): a masked key reads the word of -∞, which is ⊥. -/
theorem v15_at (p : Fin 4) (r j : Fin 1024) :
    val_main_v15 (F := Ideal) x0 x1 x2 x3 x4 x5 x6 x7 (ix3 p r j) = Cert.Spec.zrow x0 x1 x2 x3 x4 x5 x6 x7 p r j := by
  rw [val_main_v15_apply, val_main_call2_v1_apply, val_main_call2_v0_apply, val_main_cst_apply, v14_at]
  show Scalar.select (x1 (ix3 p r j)) Cert.Spec.negInfW _ = _
  rw [Cert.Spec.negInfW_eq]
  rfl

/-- The reduced axis's witness at the reference's shapes. -/
theorem red_S : S4x1024x1024.Reduces [2] S4x1024 := by decide

/-- The source index over (p, r) with key coordinate k inserted is (p, r, k). -/
theorem lift_at (p : Fin 4) (r : Fin 1024) (k : Fin 1024) : red_S.lift (ix2 p r) k = ix3 p r k :=
  funext fun a => Fin.ext (by
    show red_S.liftVal (ix2 p r) k.val a = (ix3 p r k a).val
    match a with
    | ⟨0, _⟩ => rfl
    | ⟨1, _⟩ => rfl
    | ⟨2, _⟩ => rfl)

/-- The row maximum at (p, r): the fold of max from the word of -∞ over the row's masked scores. -/
theorem v16_at (p : Fin 4) (r : Fin 1024) :
    val_main_v16 (F := Ideal) x0 x1 x2 x3 x4 x5 x6 x7 (ix2 p r)
      = Cert.Spec.rowMax (Cert.Spec.zrow x0 x1 x2 x3 x4 x5 x6 x7 p r) := by
  unfold val_main_v16
  refine (Host.reduce_eq_fold_single (FloatOps.maximumf (F := Ideal)) _ _ reducesTo_S4x1024x1024_S4x1024_d2 red_S h_S_ (ix2 p r)).trans ?_
  have hf : (val_main_v15 (F := Ideal) x0 x1 x2 x3 x4 x5 x6 x7 ∘ red_S.lift (ix2 p r))
      = Cert.Spec.zrow x0 x1 x2 x3 x4 x5 x6 x7 p r := funext fun (k : Fin 1024) =>
    (congrArg (val_main_v15 (F := Ideal) x0 x1 x2 x3 x4 x5 x6 x7) (lift_at p r k)).trans
      (v15_at x0 x1 x2 x3 x4 x5 x6 x7 p r k)
  rw [hf]
  rfl

/-- The stabilised maximum at (p, r): one more max with -∞ changes nothing. -/
theorem v18_at (p : Fin 4) (r : Fin 1024) :
    val_main_v18 (F := Ideal) x0 x1 x2 x3 x4 x5 x6 x7 (ix2 p r)
      = Cert.Spec.rowMax (Cert.Spec.zrow x0 x1 x2 x3 x4 x5 x6 x7 p r) := by
  rw [val_main_v18_apply, val_main_v17_apply, val_main_cst_1_apply, v16_at]
  exact Cert.Spec.max_negInfW_rowMax _

/-- The unnormalised weight at (p, r, j). -/
theorem v22_at (p : Fin 4) (r j : Fin 1024) :
    val_main_v22 (F := Ideal) x0 x1 x2 x3 x4 x5 x6 x7 (ix3 p r j)
      = Cert.Spec.rowExp (Cert.Spec.zrow x0 x1 x2 x3 x4 x5 x6 x7 p r) j := by
  rw [val_main_v22_apply, val_main_v21_apply, val_main_v20_apply, val_main_v19_apply, v15_at]
  have e : idx_main_v19 (idx_main_v20 (ix3 p r j)) = ix2 p r := funext fun a => Fin.ext (by
    match a with | ⟨0, _⟩ => rfl | ⟨1, _⟩ => rfl)
  rw [e, v18_at]
  rfl

/-- The row's sum of weights at (p, r): the sum starts from the zero word, which is 0. -/
theorem v23_at (p : Fin 4) (r : Fin 1024) :
    val_main_v23 (F := Ideal) x0 x1 x2 x3 x4 x5 x6 x7 (ix2 p r)
      = ∑ k : Fin 1024, Cert.Spec.rowExp (Cert.Spec.zrow x0 x1 x2 x3 x4 x5 x6 x7 p r) k := by
  rw [val_main_v23_apply, val_main_cst_2_apply]
  have e : ∀ k : Fin 1024, idx_main_v23 (ix2 p r) k = ix3 p r k := fun k => funext fun a => Fin.ext (by
    match a with | ⟨0, _⟩ => rfl | ⟨1, _⟩ => rfl | ⟨2, _⟩ => rfl)
  simp only [e, v22_at]
  show Ideal.ofBits .f32 0x00000000#32 + _ = _
  rw [Ideal.ofBits_zero_f32, zero_add]

end Stages

/-- The reference's last stage (the quotient of the exponentials by their row sums) is `Cert.Spec.G` of the arguments. -/
theorem ref_eq_spec (x0 : (⟨S4x1024x1024x3, .f32⟩ : BufTy).Contents (Elt Ideal)) (x1 : (⟨S4x1024x1024, .i1⟩ : BufTy).Contents (Elt Ideal))
    (x2 : (⟨S3x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x1, .f32⟩ : BufTy).Contents (Elt Ideal)) (x7 : (⟨S1, .f32⟩ : BufTy).Contents (Elt Ideal)) :
    val_main_v26 (F := Ideal) x0 x1 x2 x3 x4 x5 x6 x7 = Cert.Spec.G x0 x1 x2 x3 x4 x5 x6 x7 := by
  funext i
  obtain ⟨p, r, j, rfl⟩ : ∃ (p : Fin 4) (r : Fin 1024) (j : Fin 1024), i = ix3 p r j := ⟨i 0, i 1, i 2, eq_ix3 i⟩
  rw [val_main_v26_apply, val_main_v25_apply, val_main_v24_apply, v22_at]
  have e : idx_main_v24 (idx_main_v25 (ix3 p r j)) = ix2 p r := funext fun a => Fin.ext (by
    match a with | ⟨0, _⟩ => rfl | ⟨1, _⟩ => rfl)
  rw [e, v23_at]
  rfl

end Cert.ReferenceIdeal.RefValue

end
-- ==== Proof.lean ====
/-
  A pointwise three-layer perceptron score followed by a masked softmax over the last axis, as a tiled kernel and
  as a plain array program: both compute, on the extended reals, one function of the eight arguments.

  For batch entry p, query row r and key j let x = diff[p, r, j, ·] ∈ ℝ³. The score is
      s(p, r, j) = max(max(x·W₁ + b₁, 0)·W₂ + b₂, 0)·W₃ + b₃,
  a masked key's score is replaced by -∞, and with z the masked scores of row (p, r) and μ = maxₖ z k the result is
      exp(z j - μ) / Σₖ exp(z k - μ)                                            (Proof/Spec.lean, `Cert.Spec.G`).
  The kernel works on a 4 × 8 grid of (batch entry, 128-row tile) blocks; inside a block a loop of sixteen trips
  handles eight rows at a time: three matrix products per row on the feature-major slab of the row (contracting the
  three features, then the 64 hidden units twice), the eight score columns transposed into an (8, 1024) tile, the
  masked keys overwritten by a named constant that denotes -∞ on the extended reals, and a row softmax of the tile
  stored into rows 8k … 8k + 7 of the block. The sixteen stored pieces tile the block and each is the block function
  restricted to its rows (Proof/KernelBlock.lean); the 32 blocks tile the array (Proof/KernelValue.lean). The
  reference computes the same sums with the same order of factors through einsum, relu, a select against -∞ and
  jax's softmax (Proof/RefIsSpec.lean). On the extended reals a change of float format is the identity, so the
  kernel's narrowing of its operands to bf16 disappears; no algebraic law beyond reindexing finite sums and
  max(-∞, a) = a is used, and the precondition (finite inputs) is never opened.
-/
import proofs.«415036_j4303557231270_3_alg».proof.Defs
import proofs.«415036_j4303557231270_3_alg».proof.Proof.Gen.Kernel
import proofs.«415036_j4303557231270_3_alg».proof.Proof.Gen.Kernel.Skeleton
import proofs.«415036_j4303557231270_3_alg».proof.Proof.Gen.Kernel.Loops
import proofs.«415036_j4303557231270_3_alg».proof.Proof.Gen.Kernel.Launch
import proofs.«415036_j4303557231270_3_alg».proof.Proof.Gen.Kernel.Points
import proofs.«415036_j4303557231270_3_alg».proof.Proof.Gen.Kernel.Frame
import proofs.«415036_j4303557231270_3_alg».proof.Proof.Gen.KernelIdeal
import proofs.«415036_j4303557231270_3_alg».proof.Proof.Gen.KernelIdeal.Skeleton
import proofs.«415036_j4303557231270_3_alg».proof.Proof.Gen.KernelIdeal.Loops
import proofs.«415036_j4303557231270_3_alg».proof.Proof.Gen.KernelIdeal.Launch
import proofs.«415036_j4303557231270_3_alg».proof.Proof.Gen.KernelIdeal.Points
import proofs.«415036_j4303557231270_3_alg».proof.Proof.Gen.KernelIdeal.Frame
import proofs.«415036_j4303557231270_3_alg».proof.Proof.Gen.ReferenceIdeal
import proofs.«415036_j4303557231270_3_alg».proof.Proof.Gen.Pre_finite_inputs
import proofs.«415036_j4303557231270_3_alg».proof.Proof.Gen.KernelIdeal.Value
import proofs.«415036_j4303557231270_3_alg».proof.Proof.Gen.ReferenceIdeal.Run
import proofs.«415036_j4303557231270_3_alg».proof.Proof.Gen.ReferenceIdeal.Read
import proofs.«415036_j4303557231270_3_alg».proof.Proof.Spec
import proofs.«415036_j4303557231270_3_alg».proof.Proof.KernelValue
import proofs.«415036_j4303557231270_3_alg».proof.Proof.RefIsSpec
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the fill constant -1e30 is named, and the name denotes -∞. -/
theorem preserves : Cert.preserves_Kernel_KernelIdeal :=
  IdealRules.named_const.statement Cert.KernelIdeal.κ "neg_big" .f32 0xF149F2CA#32 ⊥ rfl

/-- Run from memories that agree on the arguments, both programs end with the result array at the specified
    function of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.ref_eq_spec,
    (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
